-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8388608 : Shape := ⟨1, ![8388608]⟩
abbrev S4096x1 : Shape := ⟨2, ![4096, 1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S8192x4096 .f32) (main_arg1 : IVec S8388608 32) (main_arg2 : FVec F S4096x1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  main_v8
-- ==== Kernel.lean ====
abbrev S8192x4096 : Shape := ⟨2, ![8192, 4096]⟩
abbrev S8388608 : Shape := ⟨1, ![8388608]⟩
abbrev S4096x1 : Shape := ⟨2, ![4096, 1]⟩
abbrev S4096x2048 : Shape := ⟨2, ![4096, 2048]⟩
abbrev S1024x2048 : Shape := ⟨2, ![1024, 2048]⟩
abbrev S1024x1 : Shape := ⟨2, ![1024, 1]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1024x1024 : Shape := ⟨2, ![1024, 1024]⟩

abbrev nBuf : Space → Nat
  | .hbm => 11
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S8388608, .i32⟩
  | .hbm, ⟨2, _⟩ => ⟨S4096x1, .f32⟩
  | .hbm, ⟨3, _⟩ => ⟨S4096x2048, .i32⟩
  | .hbm, ⟨4, _⟩ => ⟨S4096x2048, .bf16⟩
  | .hbm, ⟨5, _⟩ => ⟨S4096x2048, .bf16⟩
  | .hbm, ⟨6, _⟩ => ⟨S4096x2048x1, .bf16⟩
  | .hbm, ⟨7, _⟩ => ⟨S4096x2048x1, .bf16⟩
  | .hbm, ⟨8, _⟩ => ⟨S4096x2048x2, .bf16⟩
  | .hbm, ⟨9, _⟩ => ⟨S4096x4096, .bf16⟩
  | .hbm, ⟨10, _⟩ => ⟨S8192x4096, .f32⟩
  | .local _ .vmem, ⟨0, _⟩ => ⟨S1024x2048, .i32⟩
  | .local _ .vmem, ⟨1, _⟩ => ⟨S1024x2048, .i32⟩
  | .local _ .vmem, ⟨2, _⟩ => ⟨S1024x1, .f32⟩
  | .local _ .vmem, ⟨3, _⟩ => ⟨S1024x1, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S8388608_S4096x2048 : S8388608.ShapeCasts S4096x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1_S1024x1_0_0 : ∀ a, (![0, 0] : Fin 2 → Nat) a + S1024x1.size a ≤ S1024x1.size a
  h_S1024x1 : 0 < S1024x1.numel
  broadcasts_S1024x1_S1024x2048 : S1024x1.Broadcasts S1024x2048
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .i32 = 32 ∨ (Rect.block (s := S4096x2048) S1024x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .f32 = 32 ∨ (Rect.block (s := S4096x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x2048.size a
  hwx0_2 : ∀ i : grid0.Coords, EltTy.bits .bf16 = 32 ∨ (Rect.block (s := S4096x2048) S1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x2048.size a
  hwx0_3 : ∀ i : grid0.Coords, EltTy.bits .bf16 = 32 ∨ (Rect.block (s := S4096x2048) S1024x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x4096.size a
  hwx1_2 : ∀ i : grid1.Coords, EltTy.bits .f32 = 32 ∨ (Rect.block (s := S8192x4096) S1024x1024.size (cc1_transform_2 i) (hinb1_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8388608 : Shape := ⟨1, ![8388608]⟩
abbrev S4096x1 : Shape := ⟨2, ![4096, 1]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8388608, .i32⟩
  | .hbm, ⟨2, _⟩ => ⟨S4096x1, .f32⟩
  | .hbm, ⟨3, _⟩ => ⟨S_, .i32⟩
  | .hbm, ⟨4, _⟩ => ⟨S8388608, .i32⟩
  | .hbm, ⟨5, _⟩ => ⟨S8388608, .i32⟩
  | .hbm, ⟨6, _⟩ => ⟨S_, .i32⟩
  | .hbm, ⟨7, _⟩ => ⟨S8388608, .i32⟩
  | .hbm, ⟨8, _⟩ => ⟨S8388608, .i32⟩
  | .hbm, ⟨9, _⟩ => ⟨S_, .i32⟩
  | .hbm, ⟨10, _⟩ => ⟨S8388608, .i32⟩
  | .hbm, ⟨11, _⟩ => ⟨S8388608, .i32⟩
  | .hbm, ⟨12, _⟩ => ⟨S_, .i32⟩
  | .hbm, ⟨13, _⟩ => ⟨S8388608, .i32⟩
  | .hbm, ⟨14, _⟩ => ⟨S8388608, .i32⟩
  | .hbm, ⟨15, _⟩ => ⟨S_, .i32⟩
  | .hbm, ⟨16, _⟩ => ⟨S8388608, .i32⟩
  | .hbm, ⟨17, _⟩ => ⟨S8388608, .i32⟩
  | .hbm, ⟨18, _⟩ => ⟨S8388608x1, .i32⟩
  | .hbm, ⟨19, _⟩ => ⟨S8388608x1, .i32⟩
  | .hbm, ⟨20, _⟩ => ⟨S8388608x2, .i32⟩
  | .hbm, ⟨21, _⟩ => ⟨S16777216, .i32⟩
  | .hbm, ⟨22, _⟩ => ⟨S4096x4096, .i32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_c_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  shapeCasts_S16777216_S4096x4096 : S16777216.ShapeCasts S4096x4096
  bcast_S4096x1_S4096x4096_0_1 : S4096x1.BroadcastsInDim S4096x4096 (![0, 1] : Fin 2 → Fin S4096x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.BitsDequant.lean ====
/-
  The unpacking call (the first pallas_call) at any float instance, over the contents `V` its
  region is entered with.  Its grid has four points; at point `t` the body reads the block of
  1024 rows of packed words and the 1024 per-row scales, and stores into each of its two result
  blocks one whole rectangle: the low nibbles minus 8, times the row's scale, and the high
  nibbles minus 8, times the row's scale.  Nothing is carried between points, so what each
  result block holds after the body is a function of the two input blocks at that point alone.
-/
import proofs.«418287_j86088324481052_1_alg».proof.Proof.Gen.Kernel.Launch
import proofs.«418287_j86088324481052_1_alg».proof.Proof.Gen.Kernel.Skeleton
import proofs.«418287_j86088324481052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dequant

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The packed words' staging buffer holds their block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The scales' staging buffer holds their block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a block of packed words or of a result block. -/
abbrev rW : Rect S1024x2048 := Rect.unit (s := S1024x2048) ![0, 0] S1024x2048.size inb_S1024x2048_S1024x2048_0_0
/-- The whole rectangle of a block of scales. -/
abbrev rS : Rect S1024x1 := Rect.unit (s := S1024x1) ![0, 0] S1024x1.size inb_S1024x1_S1024x1_0_0

/-- The low-nibble result block after the body: one whole-rectangle store of the low nibbles, offset and scaled. -/
def outLo (x0 : Vec F S1024x2048 .i32) (x1 : Vec F S1024x1 .f32) : Vec F S1024x2048 .bf16 :=
  View.canon [⟨rW, k0_pay2 (View.ld x0 rW) (View.ld x1 rS)⟩]
/-- The high-nibble result block after the body. -/
def outHi (x0 : Vec F S1024x2048 .i32) (x1 : Vec F S1024x1 .f32) : Vec F S1024x2048 .bf16 :=
  View.canon [⟨rW, k0_pay3 (View.ld x0 rW) (View.ld x1 rS)⟩]

/-- One whole-rectangle store covers the block. -/
theorem coverW (p0 : Vec F S1024x2048 .bf16) (y : S1024x2048.Idx) :
    ∃ pc ∈ ([⟨rW, p0⟩] : List (View.Piece (Elt F) S1024x2048 .bf16)), y ∈ pc.1.set :=
  View.cover_of_tiled [⟨rW, p0⟩] S1024x2048.size (by rfl) y

set_option maxHeartbeats 1000000 in
/-- The body on whole staging buffers: the two inputs' are read and kept, each result's ends at its one store. -/
theorem sound_kernel0 (c : Dev nD) (E : Set ℕ) (i : grid0.Coords)
    (arg1 : Memref sig .tc .vmem S1024x2048 .i32) (harg1 : arg1.IsWhole) (arg2 : Memref sig .tc .vmem S1024x1 .f32) (harg2 : arg2.IsWhole)
    (arg3 : Memref sig .tc .vmem S1024x2048 .bf16) (harg3 : arg3.IsWhole) (arg4 : Memref sig .tc .vmem S1024x2048 .bf16) (harg4 : arg4.IsWhole)
    (x0 : Vec F S1024x2048 .i32) (x1 : Vec F S1024x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outLo x0 x1) ∗ owns (c : Thread nD τ) arg4 fullShare (outHi x0 x1)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverW _)
  iexists _; isplitr
  swap; · iexact H3
  ipureintro
  exact View.read_writes_eq_canon _ _ _ (coverW _)

/-- The proof data of the unpacking call on core `c`: the arrays as the region finds them; after the body at
    point `t` each input's buffer at its block and each result's at its store of the input blocks; the scoped rest and
    the generator register pass through; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outLo (iblk0 V c 0 t) (iblk0 V c 1 t)
    | ⟨3, _⟩ => outHi (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outLo (iblk0 V c 0 t) (iblk0 V c 1 t) := by dsimp only [dat0]
theorem after0_3 (c : Dev nD) (t : Fin cfg0.N) : (dat0 V c).after 3 t = outHi (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Dequant

end
-- ==== Proof.BitsMatmulRuns.lean ====
/-
  The product call (the second pallas_call) at any float instance: its body on whole staging buffers.

  The grid is 8 × 4 × 4, the last axis the contraction's.  At a point `(i, j, k)` the body holds the
  1024 × 1024 block `(i, k)` of `x` and the block `(j, k)` of the weights.  At `k = 0` it first clears a
  1024 × 1024 scratch accumulator; at every point it adds to the accumulator the product of the two
  blocks contracted over their second axes; at `k = 3` it copies the accumulator into the result block.
  So the body has three cases by `k`: the first point of a contraction (clear, add), a middle point (add),
  the last point (add, copy out).  In each case the run below finds what the body leaves in the scratch
  and in the result block as the list of its stores, last first.
-/
import proofs.«418287_j86088324481052_1_alg».proof.Proof.Gen.Kernel.Launch
import proofs.«418287_j86088324481052_1_alg».proof.Proof.Gen.Kernel.Skeleton
import proofs.«418287_j86088324481052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Matmul

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "This point is the first of its contraction": the body's first condition, from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- "This point is the last of its contraction": the body's second condition. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The result window is idle, and not written back, at every point but the last of a contraction. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the result window, through which its contents are stated. -/
abbrev VO1_2 : View sig .tc .vmem S1024x1024 .f32 := (Memref.whole cc1_stg2_0 : Memref sig .tc .vmem S1024x1024 .f32).view
/-- Each window's current staging buffer at point `t`, and that it is a whole buffer. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The scratch accumulator, a whole scoped buffer of the kernel's own, and its view. -/
abbrev scM1_0 : Memref sig .tc .vmem S1024x1024 .f32 := Memref.whole cc1_scratch0
abbrev VS1_0 : View sig .tc .vmem S1024x1024 .f32 := scM1_0.view

set_option maxHeartbeats 2000000 in
/-- The first point of a contraction: the scratch at anything in, the result block handed back untouched. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 2000000 in
/-- A middle point: the scratch at what the point before left, the result block handed back untouched. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 2000000 in
/-- The last point of a contraction: the scratch at what the point before left, the result block at anything in. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Matmul

end
-- ==== Proof.BitsMatmul.lean ====
/-
  The product call at any float instance, over the contents `V` its region is entered with: what the
  scratch accumulator and the result block hold after each grid point, the pipeline's proof data, and the
  body obligation.

  The accumulator is carried from point to point: after a first point of a contraction it holds the cleared
  scratch plus that point's block product, after any other point what the point before left plus the
  point's block product.  The result block is stored only at the last point of a contraction (where the
  pipeline writes it back); elsewhere the window is idle and its buffer is handed back untouched.  The
  invariant between points holds the accumulator at exactly what the point before left.
-/
import proofs.«418287_j86088324481052_1_alg».proof.Proof.BitsMatmulRuns

set_option maxRecDepth 16384

noncomputable section

namespace Cert.Kernel.Matmul

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of `x` holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of the weights holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- At a first point nothing is stored into the result block: a placeholder nothing consults. -/
def out1_A_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) : Vec F S1024x1024 .f32 :=
  VO1_2.read (Elt F) (VO1_2.writes (Elt F) VO1_2.junk (kernelRun1_A c i arg3 harg3 arg4 harg4 arg5 harg5 arg6 harg6 hc0 hc1 x0 x1).1)
/-- A first point's stores into the scratch cover it. -/
theorem scover1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) (y : S1024x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1024.size (by sl_kernel_rfl) y
/-- What a first point leaves in the scratch. -/
def sout1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) : Vec F S1024x1024 .f32 :=
  VS1_0.read (Elt F) (VS1_0.writes (Elt F) VS1_0.junk (kernelRun1_A c i arg3 harg3 arg4 harg4 arg5 harg5 arg6 harg6 hc0 hc1 x0 x1).2.1)

/-- At a middle point nothing is stored into the result block either. -/
def out1_B_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) : Vec F S1024x1024 .f32 :=
  VO1_2.read (Elt F) (VO1_2.writes (Elt F) VO1_2.junk (kernelRun1_B c i arg3 harg3 arg4 harg4 arg5 harg5 arg6 harg6 hc0 hc1 x0 x1 xs0).1)
theorem scover1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) (y : S1024x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1024.size (by sl_kernel_rfl) y
/-- What a middle point leaves in the scratch, over what the point before left (`xs0`). -/
def sout1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 hc0 hc1 x0 x1 xs0).2.1)

/-- A last point's store into the result block covers it. -/
theorem cover1_C_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1024.size (by sl_kernel_rfl) y
/-- What a last point leaves in the result block. -/
def out1_C_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) : Vec F S1024x1024 .f32 :=
  VO1_2.read (Elt F) (VO1_2.writes (Elt F) VO1_2.junk (kernelRun1_C c i arg3 harg3 arg4 harg4 arg5 harg5 arg6 harg6 hc0 hc1 x0 x1 xs0).1)
theorem scover1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1024.size (by sl_kernel_rfl) y
/-- What a last point leaves in the scratch. -/
def sout1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 hc0 hc1 x0 x1 xs0).2.1)

/-! ## What the result block and the accumulator hold after each point -/

/-- The result block and the accumulator after the body at position `n`: the case the position's residue mod 4
    selects, run on the point's blocks, a middle or last point over the accumulator the point before left. -/
def outsAt1 (c : Dev nD) : (n : ℕ) → n < cfg1.N → Vec F S1024x1024 .f32 × Vec F S1024x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
          sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
          sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a first point. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t),
      sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle point, over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last point, over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The core's scoped buffers that are neither a staging buffer of this call nor its scratch (the eight staging
    buffers of the unpacking call), each whole at some contents. -/
def Others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- What the region hands the body at the first point opens into those buffers, the scratch at anything and the
    generator register at some state; -/
theorem PhiA1_open (c : Dev nD) :
    (Pipeline.ΦA spec1 c : sProp 𝕄) ⊢ iprop(Others (F := F) c ∗ (∃ d, owns (c : Thread nD τ) scM1_0 fullShare d) ∗ (∃ r, prngReg c r)) := by
  unfold Pipeline.ΦA Others; rw [scopedRest1_eq]; simp only [scM1_0, owns_whole]
  iintro ⟨⟨A1, A2, A3, A4, A5, A6, A7, A8, HS⟩, Hg⟩
  isplitl [A1 A2 A3 A4 A5 A6 A7 A8]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [HS]; · iexact HS
  iexact Hg

/-- and closes back from them. -/
theorem PhiA1_close (c : Dev nD) :
    iprop(Others (F := F) c ∗ (∃ d, owns (c : Thread nD τ) scM1_0 fullShare d) ∗ (∃ r, prngReg c r)) ⊢ (Pipeline.ΦA spec1 c : sProp 𝕄) := by
  unfold Pipeline.ΦA Others; rw [scopedRest1_eq]; simp only [scM1_0, owns_whole]
  iintro ⟨⟨A1, A2, A3, A4, A5, A6, A7, A8⟩, HS, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact HS
  iexact Hg

/-- The region invariant before position `n`: before the first point what the region hands over (the scratch at
    anything); afterwards the accumulator at what the point before left in it. -/
def PhiS (c : Dev nD) : (n : ℕ) → n ≤ cfg1.N → sProp 𝕄
  | 0, _ => Pipeline.ΦA spec1 c
  | n + 1, hn => iprop(Others (F := F) c ∗ owns (c : Thread nD τ) scM1_0 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(Others (F := F) c ∗ owns (c : Thread nD τ) scM1_0 fullShare ((outsAt1 V c n hn).2) ∗ (∃ r, prngReg c r)) := rfl
theorem PhiS_pos (c : Dev nD) (n : ℕ) (h : n ≤ cfg1.N) (hz : n ≠ 0) :
    PhiS V c n h = iprop(Others (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The proof data of the product call on core `c`: the arrays as the region finds them; after the body at point
    `t` each input's buffer at its block and the result's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the residue of the point mod 4 says which case it is in; the invariant hands the body the
    accumulator at what the point before left (at anything at the very first point) and takes it back at this
    point's contents; an idle result buffer goes back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS_castSucc V c t, PhiS_zero V c _ _ hz]
      iintro ⟨HΦ, Ho, ⟨%d0, H0⟩, ⟨%d1, H1⟩, ⟨%d2, H2⟩⟩
      ihave HΦ' := (PhiA1_open c) $$ HΦ
      icases HΦ' with ⟨HO, HS0, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HO HS0 Hg]
      · isplitl [HO]; · iexact HO
        isplitl [HS0]
        · unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨HO, HS0, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HO HS0 Hg]
      · isplitl [HO]; · iexact HO
        isplitl [HS0]
        · unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      rw [PhiS_castSucc V c t, PhiS_pos V c _ _ hz]
      iintro ⟨⟨HO, HS0, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HO HS0 Hg]
      · isplitl [HO]; · iexact HO
        isplitl [HS0]
        · unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS_castSucc V c t, PhiS_pos V c _ _ hz]
      iintro ⟨⟨HO, HS0, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HO HS0 Hg]
      · isplitl [HO]; · iexact HO
        isplitl [HS0]
        · unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region hands over is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  iintro ⟨HO, HS0, Hg⟩
  iapply (PhiA1_close c)
  isplitl [HO]; · iexact HO
  isplitl [HS0]; · iexists _; iexact HS0
  iexact Hg

end Cert.Kernel.Matmul

end
-- ==== Proof.BitsRun.lean ====
/-
  The whole run of the kernel's program at any float instance: @main is a reshape of the packed words, the
  unpacking call, four layout operations that interleave its two results into the weight matrix, and the
  product call.  The contents of every unscoped buffer at each boundary are a fold from the launch memory:
  a host stretch applies its operations; a call leaves its arrays at what its write-backs make of them and
  every other buffer as it found it.  Every weakly fair execution terminates with every unscoped buffer at
  the last fold; the argument arrays are never written, so they end as launched, and the result buffer ends
  at what the product call's write-backs leave.
-/
import proofs.«418287_j86088324481052_1_alg».proof.Proof.BitsDequant
import proofs.«418287_j86088324481052_1_alg».proof.Proof.BitsMatmul
import proofs.«418287_j86088324481052_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the reshape of the packed words. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the unpacking call: its arrays at what its write-backs leave, every other buffer as entered. -/
def W2 (c : Dev nD) : Valuation τ sig (Elt F) :=
  Pipeline.withArrays spec0 c (W1 m c) fun w => (Dequant.dat0 (V1 m) c).arrAt w cfg0.N
theorem W2_arr (c : Dev nD) (w : Fin cfg0.W) :
    W2 m c (Proc.devRef .tc (Pipeline.arrRef spec0 w)) = (Dequant.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Dequant.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the four layout operations. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the product call. -/
def W4 (c : Dev nD) : Valuation τ sig (Elt F) :=
  Pipeline.withArrays spec1 c (W3 m c) fun w => (Matmul.dat1 (V3 m) c).arrAt w cfg1.N
theorem W4_arr (c : Dev nD) (w : Fin cfg1.W) :
    W4 m c (Proc.devRef .tc (Pipeline.arrRef spec1 w)) = (Matmul.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Matmul.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

/-- `x` is an input window of the product call and bypasses everything else. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((Matmul.dat1 (V3 m) c).arrAt_in 0 rfl _).trans (Matmul.A_eq1 (V3 m) c 0))
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
/-- The packed words are read by the first reshape only. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
/-- The scales are an input window of the unpacking call and bypass everything else. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 1).trans (((Dequant.dat0 (V1 m) c).arrAt_in 1 rfl _).trans (Dequant.A_eq0 (V1 m) c 1))
    _ = W0 m c (Proc.devRef .tc main_arg2) := StableHlo.after_of_writes_sub hostOps0 _ hostOps0_writes (by decide)
    _ = m ((c : Thread nD τ).loc main_arg2) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Dequant.dat0 (V1 m) c
  | ⟨1, _⟩ => fun c => Matmul.dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last fold, the generator register at some state. -/
abbrev Tₙ (c : Dev nD) : sProp 𝕄 := iprop(StableHlo.held (c : Thread nD τ) (Pipeline.ucRefs τ sig) (W4 m c) ∗ ∃ r, prngReg c r)

/-! ## The calls as segments -/

set_option backward.isDefEq.respectTransparency.types false in
/-- The unpacking call as a segment of @main: entered from every unscoped buffer at `W1`, left at `W2`.  Its arrays are
    split out of the unscoped buffers and put back at what the write-backs leave; the generator register goes into
    the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dequant.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product call as a segment of @main: entered from every unscoped buffer at `W3`, left at `W4`.  Its arrays are
    split out of the unscoped buffers and put back at what the write-backs leave; the generator register goes into
    the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Matmul.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Matmul.hin1 (V3 m) c)
    unfold Pipeline.ΦA
    iintro ⟨Hp, -, Hr⟩
    isplitl [Hr]; · iexact Hr
    iexact Hp
  hout c := by
    rw [Pipeline.ownSems0_none]
    refine (Matmul.hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    final state has every unscoped buffer at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

/-- The run with the result named: the result buffer ends at what the product call's write-backs leave in it. -/
theorem run_result : θ_run defs (onTc (τ := τ) (main (F := F))) ⟨m, fun _ => 0, ρ⟩ (fun r => ∀ c : Dev nD,
      r.2.mem ((c.tc : Thread nD τ).loc main_v6) = (Matmul.dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v6 (by decide))).trans (W4_arr m c 2),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.Kernel.Run

end
-- ==== Proof.IdealDequant.lean ====
/-
  The unpacking call (the first pallas_call) at any float instance, over the contents `V` its
  region is entered with.  Its grid has four points; at point `t` the body reads the block of
  1024 rows of packed words and the 1024 per-row scales, and stores into each of its two result
  blocks one whole rectangle: the low nibbles minus 8, times the row's scale, and the high
  nibbles minus 8, times the row's scale.  Nothing is carried between points, so what each
  result block holds after the body is a function of the two input blocks at that point alone.
-/
import proofs.«418287_j86088324481052_1_alg».proof.Proof.Gen.KernelIdeal.Launch
import proofs.«418287_j86088324481052_1_alg».proof.Proof.Gen.KernelIdeal.Skeleton
import proofs.«418287_j86088324481052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dequant

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The packed words' staging buffer holds their block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The scales' staging buffer holds their block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a block of packed words or of a result block. -/
abbrev rW : Rect S1024x2048 := Rect.unit (s := S1024x2048) ![0, 0] S1024x2048.size inb_S1024x2048_S1024x2048_0_0
/-- The whole rectangle of a block of scales. -/
abbrev rS : Rect S1024x1 := Rect.unit (s := S1024x1) ![0, 0] S1024x1.size inb_S1024x1_S1024x1_0_0

/-- The low-nibble result block after the body: one whole-rectangle store of the low nibbles, offset and scaled. -/
def outLo (x0 : Vec F S1024x2048 .i32) (x1 : Vec F S1024x1 .f32) : Vec F S1024x2048 .bf16 :=
  View.canon [⟨rW, k0_pay2 (View.ld x0 rW) (View.ld x1 rS)⟩]
/-- The high-nibble result block after the body. -/
def outHi (x0 : Vec F S1024x2048 .i32) (x1 : Vec F S1024x1 .f32) : Vec F S1024x2048 .bf16 :=
  View.canon [⟨rW, k0_pay3 (View.ld x0 rW) (View.ld x1 rS)⟩]

/-- One whole-rectangle store covers the block. -/
theorem coverW (p0 : Vec F S1024x2048 .bf16) (y : S1024x2048.Idx) :
    ∃ pc ∈ ([⟨rW, p0⟩] : List (View.Piece (Elt F) S1024x2048 .bf16)), y ∈ pc.1.set :=
  View.cover_of_tiled [⟨rW, p0⟩] S1024x2048.size (by rfl) y

set_option maxHeartbeats 1000000 in
/-- The body on whole staging buffers: the two inputs' are read and kept, each result's ends at its one store. -/
theorem sound_kernel0 (c : Dev nD) (E : Set ℕ) (i : grid0.Coords)
    (arg1 : Memref sig .tc .vmem S1024x2048 .i32) (harg1 : arg1.IsWhole) (arg2 : Memref sig .tc .vmem S1024x1 .f32) (harg2 : arg2.IsWhole)
    (arg3 : Memref sig .tc .vmem S1024x2048 .bf16) (harg3 : arg3.IsWhole) (arg4 : Memref sig .tc .vmem S1024x2048 .bf16) (harg4 : arg4.IsWhole)
    (x0 : Vec F S1024x2048 .i32) (x1 : Vec F S1024x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outLo x0 x1) ∗ owns (c : Thread nD τ) arg4 fullShare (outHi x0 x1)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverW _)
  iexists _; isplitr
  swap; · iexact H3
  ipureintro
  exact View.read_writes_eq_canon _ _ _ (coverW _)

/-- The proof data of the unpacking call on core `c`: the arrays as the region finds them; after the body at
    point `t` each input's buffer at its block and each result's at its store of the input blocks; the scoped rest and
    the generator register pass through; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outLo (iblk0 V c 0 t) (iblk0 V c 1 t)
    | ⟨3, _⟩ => outHi (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outLo (iblk0 V c 0 t) (iblk0 V c 1 t) := by dsimp only [dat0]
theorem after0_3 (c : Dev nD) (t : Fin cfg0.N) : (dat0 V c).after 3 t = outHi (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Dequant

end
-- ==== Proof.IdealMatmulRuns.lean ====
/-
  The product call (the second pallas_call) at any float instance: its body on whole staging buffers.

  The grid is 8 × 4 × 4, the last axis the contraction's.  At a point `(i, j, k)` the body holds the
  1024 × 1024 block `(i, k)` of `x` and the block `(j, k)` of the weights.  At `k = 0` it first clears a
  1024 × 1024 scratch accumulator; at every point it adds to the accumulator the product of the two
  blocks contracted over their second axes; at `k = 3` it copies the accumulator into the result block.
  So the body has three cases by `k`: the first point of a contraction (clear, add), a middle point (add),
  the last point (add, copy out).  In each case the run below finds what the body leaves in the scratch
  and in the result block as the list of its stores, last first.
-/
import proofs.«418287_j86088324481052_1_alg».proof.Proof.Gen.KernelIdeal.Launch
import proofs.«418287_j86088324481052_1_alg».proof.Proof.Gen.KernelIdeal.Skeleton
import proofs.«418287_j86088324481052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Matmul

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "This point is the first of its contraction": the body's first condition, from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- "This point is the last of its contraction": the body's second condition. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The result window is idle, and not written back, at every point but the last of a contraction. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the result window, through which its contents are stated. -/
abbrev VO1_2 : View sig .tc .vmem S1024x1024 .f32 := (Memref.whole cc1_stg2_0 : Memref sig .tc .vmem S1024x1024 .f32).view
/-- Each window's current staging buffer at point `t`, and that it is a whole buffer. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The scratch accumulator, a whole scoped buffer of the kernel's own, and its view. -/
abbrev scM1_0 : Memref sig .tc .vmem S1024x1024 .f32 := Memref.whole cc1_scratch0
abbrev VS1_0 : View sig .tc .vmem S1024x1024 .f32 := scM1_0.view

set_option maxHeartbeats 2000000 in
/-- The first point of a contraction: the scratch at anything in, the result block handed back untouched. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 2000000 in
/-- A middle point: the scratch at what the point before left, the result block handed back untouched. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 2000000 in
/-- The last point of a contraction: the scratch at what the point before left, the result block at anything in. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Matmul

end
-- ==== Proof.IdealMatmul.lean ====
/-
  The product call at any float instance, over the contents `V` its region is entered with: what the
  scratch accumulator and the result block hold after each grid point, the pipeline's proof data, and the
  body obligation.

  The accumulator is carried from point to point: after a first point of a contraction it holds the cleared
  scratch plus that point's block product, after any other point what the point before left plus the
  point's block product.  The result block is stored only at the last point of a contraction (where the
  pipeline writes it back); elsewhere the window is idle and its buffer is handed back untouched.  The
  invariant between points holds the accumulator at exactly what the point before left.
-/
import proofs.«418287_j86088324481052_1_alg».proof.Proof.IdealMatmulRuns

set_option maxRecDepth 16384

noncomputable section

namespace Cert.KernelIdeal.Matmul

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of `x` holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of the weights holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- At a first point nothing is stored into the result block: a placeholder nothing consults. -/
def out1_A_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) : Vec F S1024x1024 .f32 :=
  VO1_2.read (Elt F) (VO1_2.writes (Elt F) VO1_2.junk (kernelRun1_A c i arg3 harg3 arg4 harg4 arg5 harg5 arg6 harg6 hc0 hc1 x0 x1).1)
/-- A first point's stores into the scratch cover it. -/
theorem scover1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) (y : S1024x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1024.size (by sl_kernel_rfl) y
/-- What a first point leaves in the scratch. -/
def sout1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) : Vec F S1024x1024 .f32 :=
  VS1_0.read (Elt F) (VS1_0.writes (Elt F) VS1_0.junk (kernelRun1_A c i arg3 harg3 arg4 harg4 arg5 harg5 arg6 harg6 hc0 hc1 x0 x1).2.1)

/-- At a middle point nothing is stored into the result block either. -/
def out1_B_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) : Vec F S1024x1024 .f32 :=
  VO1_2.read (Elt F) (VO1_2.writes (Elt F) VO1_2.junk (kernelRun1_B c i arg3 harg3 arg4 harg4 arg5 harg5 arg6 harg6 hc0 hc1 x0 x1 xs0).1)
theorem scover1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) (y : S1024x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1024.size (by sl_kernel_rfl) y
/-- What a middle point leaves in the scratch, over what the point before left (`xs0`). -/
def sout1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 hc0 hc1 x0 x1 xs0).2.1)

/-- A last point's store into the result block covers it. -/
theorem cover1_C_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1024.size (by sl_kernel_rfl) y
/-- What a last point leaves in the result block. -/
def out1_C_2 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) : Vec F S1024x1024 .f32 :=
  VO1_2.read (Elt F) (VO1_2.writes (Elt F) VO1_2.junk (kernelRun1_C c i arg3 harg3 arg4 harg4 arg5 harg5 arg6 harg6 hc0 hc1 x0 x1 xs0).1)
theorem scover1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1024.size (by sl_kernel_rfl) y
/-- What a last point leaves in the scratch. -/
def sout1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 hc0 hc1 x0 x1 xs0).2.1)

/-! ## What the result block and the accumulator hold after each point -/

/-- The result block and the accumulator after the body at position `n`: the case the position's residue mod 4
    selects, run on the point's blocks, a middle or last point over the accumulator the point before left. -/
def outsAt1 (c : Dev nD) : (n : ℕ) → n < cfg1.N → Vec F S1024x1024 .f32 × Vec F S1024x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
          sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
          sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a first point. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t),
      sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle point, over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last point, over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The core's scoped buffers that are neither a staging buffer of this call nor its scratch (the eight staging
    buffers of the unpacking call), each whole at some contents. -/
def Others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- What the region hands the body at the first point opens into those buffers, the scratch at anything and the
    generator register at some state; -/
theorem PhiA1_open (c : Dev nD) :
    (Pipeline.ΦA spec1 c : sProp 𝕄) ⊢ iprop(Others (F := F) c ∗ (∃ d, owns (c : Thread nD τ) scM1_0 fullShare d) ∗ (∃ r, prngReg c r)) := by
  unfold Pipeline.ΦA Others; rw [scopedRest1_eq]; simp only [scM1_0, owns_whole]
  iintro ⟨⟨A1, A2, A3, A4, A5, A6, A7, A8, HS⟩, Hg⟩
  isplitl [A1 A2 A3 A4 A5 A6 A7 A8]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [HS]; · iexact HS
  iexact Hg

/-- and closes back from them. -/
theorem PhiA1_close (c : Dev nD) :
    iprop(Others (F := F) c ∗ (∃ d, owns (c : Thread nD τ) scM1_0 fullShare d) ∗ (∃ r, prngReg c r)) ⊢ (Pipeline.ΦA spec1 c : sProp 𝕄) := by
  unfold Pipeline.ΦA Others; rw [scopedRest1_eq]; simp only [scM1_0, owns_whole]
  iintro ⟨⟨A1, A2, A3, A4, A5, A6, A7, A8⟩, HS, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact HS
  iexact Hg

/-- The region invariant before position `n`: before the first point what the region hands over (the scratch at
    anything); afterwards the accumulator at what the point before left in it. -/
def PhiS (c : Dev nD) : (n : ℕ) → n ≤ cfg1.N → sProp 𝕄
  | 0, _ => Pipeline.ΦA spec1 c
  | n + 1, hn => iprop(Others (F := F) c ∗ owns (c : Thread nD τ) scM1_0 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(Others (F := F) c ∗ owns (c : Thread nD τ) scM1_0 fullShare ((outsAt1 V c n hn).2) ∗ (∃ r, prngReg c r)) := rfl
theorem PhiS_pos (c : Dev nD) (n : ℕ) (h : n ≤ cfg1.N) (hz : n ≠ 0) :
    PhiS V c n h = iprop(Others (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The proof data of the product call on core `c`: the arrays as the region finds them; after the body at point
    `t` each input's buffer at its block and the result's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the residue of the point mod 4 says which case it is in; the invariant hands the body the
    accumulator at what the point before left (at anything at the very first point) and takes it back at this
    point's contents; an idle result buffer goes back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS_castSucc V c t, PhiS_zero V c _ _ hz]
      iintro ⟨HΦ, Ho, ⟨%d0, H0⟩, ⟨%d1, H1⟩, ⟨%d2, H2⟩⟩
      ihave HΦ' := (PhiA1_open c) $$ HΦ
      icases HΦ' with ⟨HO, HS0, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HO HS0 Hg]
      · isplitl [HO]; · iexact HO
        isplitl [HS0]
        · unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨HO, HS0, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HO HS0 Hg]
      · isplitl [HO]; · iexact HO
        isplitl [HS0]
        · unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      rw [PhiS_castSucc V c t, PhiS_pos V c _ _ hz]
      iintro ⟨⟨HO, HS0, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HO HS0 Hg]
      · isplitl [HO]; · iexact HO
        isplitl [HS0]
        · unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS_castSucc V c t, PhiS_pos V c _ _ hz]
      iintro ⟨⟨HO, HS0, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HO HS0 Hg]
      · isplitl [HO]; · iexact HO
        isplitl [HS0]
        · unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region hands over is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  iintro ⟨HO, HS0, Hg⟩
  iapply (PhiA1_close c)
  isplitl [HO]; · iexact HO
  isplitl [HS0]; · iexists _; iexact HS0
  iexact Hg

end Cert.KernelIdeal.Matmul

end
-- ==== Proof.IdealRun.lean ====
/-
  The whole run of the kernel's program at any float instance: @main is a reshape of the packed words, the
  unpacking call, four layout operations that interleave its two results into the weight matrix, and the
  product call.  The contents of every unscoped buffer at each boundary are a fold from the launch memory:
  a host stretch applies its operations; a call leaves its arrays at what its write-backs make of them and
  every other buffer as it found it.  Every weakly fair execution terminates with every unscoped buffer at
  the last fold; the argument arrays are never written, so they end as launched, and the result buffer ends
  at what the product call's write-backs leave.
-/
import proofs.«418287_j86088324481052_1_alg».proof.Proof.IdealDequant
import proofs.«418287_j86088324481052_1_alg».proof.Proof.IdealMatmul
import proofs.«418287_j86088324481052_1_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the reshape of the packed words. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the unpacking call: its arrays at what its write-backs leave, every other buffer as entered. -/
def W2 (c : Dev nD) : Valuation τ sig (Elt F) :=
  Pipeline.withArrays spec0 c (W1 m c) fun w => (Dequant.dat0 (V1 m) c).arrAt w cfg0.N
theorem W2_arr (c : Dev nD) (w : Fin cfg0.W) :
    W2 m c (Proc.devRef .tc (Pipeline.arrRef spec0 w)) = (Dequant.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Dequant.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the four layout operations. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the product call. -/
def W4 (c : Dev nD) : Valuation τ sig (Elt F) :=
  Pipeline.withArrays spec1 c (W3 m c) fun w => (Matmul.dat1 (V3 m) c).arrAt w cfg1.N
theorem W4_arr (c : Dev nD) (w : Fin cfg1.W) :
    W4 m c (Proc.devRef .tc (Pipeline.arrRef spec1 w)) = (Matmul.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Matmul.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

/-- `x` is an input window of the product call and bypasses everything else. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((Matmul.dat1 (V3 m) c).arrAt_in 0 rfl _).trans (Matmul.A_eq1 (V3 m) c 0))
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
/-- The packed words are read by the first reshape only. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
/-- The scales are an input window of the unpacking call and bypass everything else. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 1).trans (((Dequant.dat0 (V1 m) c).arrAt_in 1 rfl _).trans (Dequant.A_eq0 (V1 m) c 1))
    _ = W0 m c (Proc.devRef .tc main_arg2) := StableHlo.after_of_writes_sub hostOps0 _ hostOps0_writes (by decide)
    _ = m ((c : Thread nD τ).loc main_arg2) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Dequant.dat0 (V1 m) c
  | ⟨1, _⟩ => fun c => Matmul.dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last fold, the generator register at some state. -/
abbrev Tₙ (c : Dev nD) : sProp 𝕄 := iprop(StableHlo.held (c : Thread nD τ) (Pipeline.ucRefs τ sig) (W4 m c) ∗ ∃ r, prngReg c r)

/-! ## The calls as segments -/

set_option backward.isDefEq.respectTransparency.types false in
/-- The unpacking call as a segment of @main: entered from every unscoped buffer at `W1`, left at `W2`.  Its arrays are
    split out of the unscoped buffers and put back at what the write-backs leave; the generator register goes into
    the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dequant.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product call as a segment of @main: entered from every unscoped buffer at `W3`, left at `W4`.  Its arrays are
    split out of the unscoped buffers and put back at what the write-backs leave; the generator register goes into
    the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Matmul.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Matmul.hin1 (V3 m) c)
    unfold Pipeline.ΦA
    iintro ⟨Hp, -, Hr⟩
    isplitl [Hr]; · iexact Hr
    iexact Hp
  hout c := by
    rw [Pipeline.ownSems0_none]
    refine (Matmul.hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    final state has every unscoped buffer at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

/-- The run with the result named: the result buffer ends at what the product call's write-backs leave in it. -/
theorem run_result : θ_run defs (onTc (τ := τ) (main (F := F))) ⟨m, fun _ => 0, ρ⟩ (fun r => ∀ c : Dev nD,
      r.2.mem ((c.tc : Thread nD τ).loc main_v6) = (Matmul.dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v6 (by decide))).trans (W4_arr m c 2),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.Run

end
-- ==== Proof.Spec.lean ====
/-
  What both programs compute, as one function of the three argument arrays, over the extended reals.

  The packed array holds, per output row `o` (4096 rows), 2048 words; word `j` of row `o` carries two
  signed four-bit weights offset by 8: its low nibble is column `2j` of the row and the nibble above it
  column `2j+1`.  A weight is the nibble minus 8, read as a real, times the row's scale.  The result is
  `y[n, o] = ∑ k, x[n, k] · w[o, k]` over the 4096 columns.
-/
import Idealize.ShloMosaic.PureOps.Ideal
import Idealize.ShloMosaic.Lib.ValueIdx

noncomputable section

open scoped BigOperators

namespace Cert.Spec

open Idealize.ShloMosaic Idealize.ShloMosaic.ValueIdx

/-- The low nibble of a packed word, minus 8. -/
def lo (p : BitVec 32) : BitVec 32 := IntOp.subi (IntOp.andi p 15#32) 8#32
/-- The nibble above it (the word shifted right by four, arithmetically, then masked), minus 8. -/
def hi (p : BitVec 32) : BitVec 32 := IntOp.subi (IntOp.andi (IntOp.shrsi .host p 4#32) 15#32) 8#32

/-- A shift by four is inside the word, so the vector unit's arithmetic right shift is the host's. -/
theorem shrsi_vector_four (p : BitVec 32) : IntOp.shrsi .vector p 4#32 = IntOp.shrsi .host p 4#32 := by
  unfold IntOp.shrsi; rw [if_pos (by decide), if_pos (by decide)]

/-- The low-nibble weights of a [4096, 2048] array of words `P` with per-row scales `s`: entry (o, j) is
    `(lo P[o,j]) · s[o]`. -/
def loArr (P : (⟨2, ![4096, 2048]⟩ : Shape).Idx → BitVec 32) (s : (⟨2, ![4096, 1]⟩ : Shape).Idx → EReal) :
    (⟨2, ![4096, 2048]⟩ : Shape).Idx → EReal :=
  fun i => FloatOps.sitofp (F := Ideal) .f32 (lo (P i)) * s (ix2 (⟨(i 0).val, idx2_lt0 i⟩ : Fin 4096) (0 : Fin 1))
/-- The high-nibble weights: entry (o, j) is `(hi P[o,j]) · s[o]`. -/
def hiArr (P : (⟨2, ![4096, 2048]⟩ : Shape).Idx → BitVec 32) (s : (⟨2, ![4096, 1]⟩ : Shape).Idx → EReal) :
    (⟨2, ![4096, 2048]⟩ : Shape).Idx → EReal :=
  fun i => FloatOps.sitofp (F := Ideal) .f32 (hi (P i)) * s (ix2 (⟨(i 0).val, idx2_lt0 i⟩ : Fin 4096) (0 : Fin 1))

/-- Two [4096, 2048] arrays interleaved along the columns into [4096, 4096]: column `2j` from the first,
    column `2j+1` from the second. -/
def interleave {α : Type} (a b : (⟨2, ![4096, 2048]⟩ : Shape).Idx → α) : (⟨2, ![4096, 4096]⟩ : Shape).Idx → α :=
  fun i => if (i 1).val % 2 = 0
    then a (ix2 (⟨(i 0).val, idx2_lt0 i⟩ : Fin 4096) (⟨(i 1).val / 2, by have := idx2_lt1 i; omega⟩ : Fin 2048))
    else b (ix2 (⟨(i 0).val, idx2_lt0 i⟩ : Fin 4096) (⟨(i 1).val / 2, by have := idx2_lt1 i; omega⟩ : Fin 2048))

/-- The flat array of 8388608 words laid out as [4096, 2048], row-major. -/
def rows (p : (⟨1, ![8388608]⟩ : Shape).Idx → BitVec 32) : (⟨2, ![4096, 2048]⟩ : Shape).Idx → BitVec 32 :=
  fun i => p (ix1 (⟨(i 0).val * 2048 + (i 1).val, by have := idx2_lt0 i; have := idx2_lt1 i; omega⟩ : Fin 8388608))

/-- The dequantised weight matrix [4096, 4096]. -/
def wgt (p : (⟨1, ![8388608]⟩ : Shape).Idx → BitVec 32) (s : (⟨2, ![4096, 1]⟩ : Shape).Idx → EReal) :
    (⟨2, ![4096, 4096]⟩ : Shape).Idx → EReal :=
  interleave (loArr (rows p) s) (hiArr (rows p) s)

/-- `x · wᵀ` for `x : [8192, 4096]` and `w : [4096, 4096]`: entry (n, o) is `∑ k, x[n,k] · w[o,k]`. -/
def mmT (x : (⟨2, ![8192, 4096]⟩ : Shape).Idx → EReal) (w : (⟨2, ![4096, 4096]⟩ : Shape).Idx → EReal) :
    (⟨2, ![8192, 4096]⟩ : Shape).Idx → EReal :=
  fun i => ∑ k : Fin 4096, x (ix2 (⟨(i 0).val, idx2_lt0 i⟩ : Fin 8192) k) * w (ix2 (⟨(i 1).val, idx2_lt1 i⟩ : Fin 4096) k)

/-- The result of both programs. -/
def G (x : (⟨2, ![8192, 4096]⟩ : Shape).Idx → EReal) (p : (⟨1, ![8388608]⟩ : Shape).Idx → BitVec 32)
    (s : (⟨2, ![4096, 1]⟩ : Shape).Idx → EReal) : (⟨2, ![8192, 4096]⟩ : Shape).Idx → EReal :=
  mmT x (wgt p s)

end Cert.Spec

end
-- ==== Proof.ValDequant.lean ====
/-
  The unpacking call's two result arrays after the run, at the ideal instance, as functions of
  the packed words and the per-row scales the region is entered with.

  At grid point `t` the body stores into each result block one whole rectangle whose entry
  (p, q) is the word at (p, q) of the point's block of packed words, its low nibble (or the
  nibble above it) minus 8, read as a real, times entry (p, 0) of the point's block of scales
  (the closing change of format to bf16 is the identity on the extended reals).  Block `t` of
  every window is rows 1024·t … 1024·t + 1023 of its array, so what point `t` writes back is
  block `t` of one whole-array function, and the four blocks cover the 4096 rows: each result
  array ends holding that function.
-/
import proofs.«418287_j86088324481052_1_alg».proof.Proof.IdealDequant
import proofs.«418287_j86088324481052_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.DequantVal

open Cert.KernelIdeal Cert.KernelIdeal.Gen Cert.KernelIdeal.Dequant Idealize.ShloMosaic Idealize.ShloMosaic.TcCoe
open Idealize.ShloMosaic.ValueIdx
open Idealize.ShloMosaic.Pipeline (Dat)

/-! ## The payloads at an index -/

theorem hz : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The low-nibble payload at (p, q): the word's low nibble minus 8, as a real, times the row's scale. -/
theorem pay2_apply (x0 : Vec Ideal S1024x2048 .i32) (x1 : Vec Ideal S1024x1 .f32) (p : Fin 1024) (q : Fin 2048) :
    k0_pay2 x0 x1 (ix2 p q)
      = FloatOps.sitofp (F := Ideal) .f32 (Cert.Spec.lo (x0 (ix2 p q))) * x1 (ix2 p (0 : Fin 1)) := by
  unfold k0_pay2 k0_pay1
  rw [shapeCast_self]
  show FloatOps.sitofp (F := Ideal) .f32 (IntOp.subi (IntOp.andi (x0 (ix2 p q)) 15#32) 8#32)
      * broadcastTo S1024x2048 x1 broadcasts_S1024x1_S1024x2048 (ix2 p q) = _
  rw [broadcastTo_a1_ab_apply]
  rfl

/-- The high-nibble payload at (p, q): the nibble above the low one minus 8, as a real, times the row's scale. -/
theorem pay3_apply (x0 : Vec Ideal S1024x2048 .i32) (x1 : Vec Ideal S1024x1 .f32) (p : Fin 1024) (q : Fin 2048) :
    k0_pay3 x0 x1 (ix2 p q)
      = FloatOps.sitofp (F := Ideal) .f32 (Cert.Spec.hi (x0 (ix2 p q))) * x1 (ix2 p (0 : Fin 1)) := by
  unfold k0_pay3 k0_pay1
  rw [shapeCast_self]
  show FloatOps.sitofp (F := Ideal) .f32 (IntOp.subi (IntOp.andi (IntOp.shrsi .vector (x0 (ix2 p q)) 4#32) 15#32) 8#32)
      * broadcastTo S1024x2048 x1 broadcasts_S1024x1_S1024x2048 (ix2 p q) = _
  rw [broadcastTo_a1_ab_apply, Cert.Spec.shrsi_vector_four]
  rfl

/-- The low-nibble result block after the body, at (p, q). -/
theorem outLo_apply (x0 : Vec Ideal S1024x2048 .i32) (x1 : Vec Ideal S1024x1 .f32) (p : Fin 1024) (q : Fin 2048) :
    outLo x0 x1 (ix2 p q)
      = FloatOps.sitofp (F := Ideal) .f32 (Cert.Spec.lo (x0 (ix2 p q))) * x1 (ix2 p (0 : Fin 1)) := by
  unfold outLo
  rw [View.canon_unit_zero hz, View.ld_unit_zero (S := S1024x2048) hz, View.ld_unit_zero (S := S1024x1) hz]
  exact pay2_apply x0 x1 p q

/-- The high-nibble result block after the body, at (p, q). -/
theorem outHi_apply (x0 : Vec Ideal S1024x2048 .i32) (x1 : Vec Ideal S1024x1 .f32) (p : Fin 1024) (q : Fin 2048) :
    outHi x0 x1 (ix2 p q)
      = FloatOps.sitofp (F := Ideal) .f32 (Cert.Spec.hi (x0 (ix2 p q))) * x1 (ix2 p (0 : Fin 1)) := by
  unfold outHi
  rw [View.canon_unit_zero hz, View.ld_unit_zero (S := S1024x2048) hz, View.ld_unit_zero (S := S1024x1) hz]
  exact pay3_apply x0 x1 p q

/-! ## The blocks as rows of their arrays -/

variable (V : (c : Dev nD) → (b : Ref sig .tc) → Buf (Elt Ideal) ((c : Thread nD τ).loc b))

/-- The printed index maps, decided over the grid: at point `t` every window's block index is `t` along the
    rows and 0 along the columns. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block of packed words at point `t`, at (p, q), is the array's word at row 1024·t + p, column q. -/
theorem words_blk_apply (c : Dev nD) (t : Fin cfg0.N) (p : Fin 1024) (q : Fin 2048) (i : S4096x2048.Idx)
    (hi0 : (i 0).val = t.val * 1024 + p.val) (hi1 : (i 1).val = q.val) :
    iblk0 V c 0 t (ix2 p q) = V c main_v0 i := by
  obtain ⟨e00, e01, -⟩ := idx_facts t
  show V c main_v0 (((cfg0.win 0).blk t).view.emb (ix2 p q)) = V c main_v0 i
  refine congrArg _ (funext fun a => Fin.ext ?_)
  match a with
  | ⟨0, _⟩ => show win0_0.index t (0 : Fin 2) * 1024 + 1 * p.val = (i 0).val; rw [e00, hi0]; omega
  | ⟨1, _⟩ => show win0_0.index t (1 : Fin 2) * 2048 + 1 * q.val = (i 1).val; rw [e01, hi1]; omega

/-- The block of scales at point `t`, at (p, 0), is the scale of row 1024·t + p. -/
theorem scales_blk_apply (c : Dev nD) (t : Fin cfg0.N) (p : Fin 1024) (i : S4096x1.Idx)
    (hi0 : (i 0).val = t.val * 1024 + p.val) :
    iblk0 V c 1 t (ix2 p (0 : Fin 1)) = V c main_arg2 i := by
  obtain ⟨-, -, e10, e11, -⟩ := idx_facts t
  show V c main_arg2 (((cfg0.win 1).blk t).view.emb (ix2 p (0 : Fin 1))) = V c main_arg2 i
  refine congrArg _ (funext fun a => Fin.ext ?_)
  match a with
  | ⟨0, _⟩ => show win0_1.index t (0 : Fin 2) * 1024 + 1 * p.val = (i 0).val; rw [e10, hi0]; omega
  | ⟨1, _⟩ =>
    show win0_1.index t (1 : Fin 2) * 1 + 1 * (0 : Fin 1).val = (i 1).val
    have h1 : (i 1).val < 1 := idx2_lt1 i
    rw [e11]; show 0 * 1 + 1 * 0 = (i 1).val; omega

/-! ## What each point writes back, and the arrays after the run -/

/-- What point `t` writes back into the low-nibble result is block `t` of the low-nibble weights of the packed
    words and scales the region is entered with. -/
theorem flushedLo_eq (c : Dev nD) (t : Fin cfg0.N) :
    (dat0 (F := Ideal) V c).flushed 2 t
      = ((cfg0.win 2).blk t).view.read (Elt Ideal) (Cert.Spec.loArr (V c main_v0) (V c main_arg2)) := by
  show (cfg0.win 2).cut (grid0.coords t) ((dat0 (F := Ideal) V c).after 2 t) = _
  rw [after0_2]
  obtain ⟨-, -, -, -, e20, e21, -⟩ := idx_facts t
  funext j
  obtain ⟨p, q, rfl⟩ : ∃ (p : Fin 1024) (q : Fin 2048), j = ix2 p q := ⟨j 0, j 1, eq_ix2 j⟩
  refine (outLo_apply _ _ p q).trans ?_
  have r0 : ((((cfg0.win 2).blk t).view.emb (ix2 p q)) 0).val = t.val * 1024 + p.val := by
    show win0_2.index t (0 : Fin 2) * 1024 + 1 * p.val = _; rw [e20]; omega
  have r1 : ((((cfg0.win 2).blk t).view.emb (ix2 p q)) 1).val = q.val := by
    show win0_2.index t (1 : Fin 2) * 2048 + 1 * q.val = _; rw [e21]; omega
  rw [words_blk_apply V c t p q (((cfg0.win 2).blk t).view.emb (ix2 p q)) r0 r1,
    scales_blk_apply V c t p (ix2 (⟨((((cfg0.win 2).blk t).view.emb (ix2 p q)) 0).val, idx2_lt0 _⟩ : Fin 4096) (0 : Fin 1)) r0]
  rfl

/-- The same for the high-nibble result. -/
theorem flushedHi_eq (c : Dev nD) (t : Fin cfg0.N) :
    (dat0 (F := Ideal) V c).flushed 3 t
      = ((cfg0.win 3).blk t).view.read (Elt Ideal) (Cert.Spec.hiArr (V c main_v0) (V c main_arg2)) := by
  show (cfg0.win 3).cut (grid0.coords t) ((dat0 (F := Ideal) V c).after 3 t) = _
  rw [after0_3]
  obtain ⟨-, -, -, -, -, -, e30, e31⟩ := idx_facts t
  funext j
  obtain ⟨p, q, rfl⟩ : ∃ (p : Fin 1024) (q : Fin 2048), j = ix2 p q := ⟨j 0, j 1, eq_ix2 j⟩
  refine (outHi_apply _ _ p q).trans ?_
  have r0 : ((((cfg0.win 3).blk t).view.emb (ix2 p q)) 0).val = t.val * 1024 + p.val := by
    show win0_3.index t (0 : Fin 2) * 1024 + 1 * p.val = _; rw [e30]; omega
  have r1 : ((((cfg0.win 3).blk t).view.emb (ix2 p q)) 1).val = q.val := by
    show win0_3.index t (1 : Fin 2) * 2048 + 1 * q.val = _; rw [e31]; omega
  rw [words_blk_apply V c t p q (((cfg0.win 3).blk t).view.emb (ix2 p q)) r0 r1,
    scales_blk_apply V c t p (ix2 (⟨((((cfg0.win 3).blk t).view.emb (ix2 p q)) 0).val, idx2_lt0 _⟩ : Fin 4096) (0 : Fin 1)) r0]
  rfl

/-- An index of the low-nibble result is in point `t`'s block iff each coordinate is in the block's range on its axis. -/
theorem mem_blkLo (t : Fin cfg0.N) (i : S4096x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v1_0).slice (win0_2.rect t)).set ↔ _
  rw [View.set_slice_whole, Rect.mem_set_unit]
  exact Iff.rfl

/-- The same for the high-nibble result. -/
theorem mem_blkHi (t : Fin cfg0.N) (i : S4096x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v1_1).slice (win0_3.rect t)).set ↔ _
  rw [View.set_slice_whole, Rect.mem_set_unit]
  exact Iff.rfl

/-- The point whose block holds row `r` is `r / 1024`. -/
theorem point_of_row (r : Nat) (hr : r < 4096) : ∃ t : Fin cfg0.N, t.val = r / 1024 :=
  ⟨⟨r / 1024, by show r / 1024 < grid0.N; rw [N_0]; omega⟩, rfl⟩

/-- Every index of the low-nibble result is in some point's block. -/
theorem coverLo (i : S4096x2048.Idx) :
    ∃ t : Fin cfg0.N, (cfg0.win 2).flush t = true ∧ i ∈ ((cfg0.win 2).blk t).view.set := by
  have hi0 : (i 0).val < 4096 := idx2_lt0 i
  have hi1 : (i 1).val < 2048 := idx2_lt1 i
  obtain ⟨t, ht⟩ := point_of_row (i 0).val hi0
  obtain ⟨-, -, -, -, e20, e21, -⟩ := idx_facts t
  refine ⟨t, flush0_2 t, ?_⟩
  rw [mem_blkLo]
  intro a
  match a with
  | ⟨0, _⟩ =>
    show win0_2.index t (0 : Fin 2) * 1024 ≤ (i 0).val ∧ (i 0).val < win0_2.index t (0 : Fin 2) * 1024 + 1024
    rw [e20, ht]; omega
  | ⟨1, _⟩ =>
    show win0_2.index t (1 : Fin 2) * 2048 ≤ (i 1).val ∧ (i 1).val < win0_2.index t (1 : Fin 2) * 2048 + 2048
    rw [e21]; omega

/-- Every index of the high-nibble result is in some point's block. -/
theorem coverHi (i : S4096x2048.Idx) :
    ∃ t : Fin cfg0.N, (cfg0.win 3).flush t = true ∧ i ∈ ((cfg0.win 3).blk t).view.set := by
  have hi0 : (i 0).val < 4096 := idx2_lt0 i
  have hi1 : (i 1).val < 2048 := idx2_lt1 i
  obtain ⟨t, ht⟩ := point_of_row (i 0).val hi0
  obtain ⟨-, -, -, -, -, -, e30, e31⟩ := idx_facts t
  refine ⟨t, flush0_3 t, ?_⟩
  rw [mem_blkHi]
  intro a
  match a with
  | ⟨0, _⟩ =>
    show win0_3.index t (0 : Fin 2) * 1024 ≤ (i 0).val ∧ (i 0).val < win0_3.index t (0 : Fin 2) * 1024 + 1024
    rw [e30, ht]; omega
  | ⟨1, _⟩ =>
    show win0_3.index t (1 : Fin 2) * 2048 ≤ (i 1).val ∧ (i 1).val < win0_3.index t (1 : Fin 2) * 2048 + 2048
    rw [e31]; omega

/-- The low-nibble result array after the run: the low-nibble weights of the packed words and the scales. -/
theorem arrLo (c : Dev nD) :
    (dat0 (F := Ideal) V c).arrAt 2 cfg0.N = Cert.Spec.loArr (V c main_v0) (V c main_arg2) :=
  (dat0 (F := Ideal) V c).arrAt_eq_of_cover 2 (Cert.Spec.loArr (V c main_v0) (V c main_arg2))
    (fun t _ => flushedLo_eq V c t) coverLo

/-- The high-nibble result array after the run: the high-nibble weights of the packed words and the scales. -/
theorem arrHi (c : Dev nD) :
    (dat0 (F := Ideal) V c).arrAt 3 cfg0.N = Cert.Spec.hiArr (V c main_v0) (V c main_arg2) :=
  (dat0 (F := Ideal) V c).arrAt_eq_of_cover 3 (Cert.Spec.hiArr (V c main_v0) (V c main_arg2))
    (fun t _ => flushedHi_eq V c t) coverHi

end Cert.KernelIdeal.DequantVal

end
-- ==== Proof.ValHost.lean ====
/-
  What the program's two stretches of host operations leave in the buffers its regions read, and those layout
  terms read at an index.

  The first stretch lays the flat array of 8388608 packed words out as [4096, 2048], row-major: entry (o, j) is
  word `o · 2048 + j`.  The second stretch takes the two [4096, 2048] arrays the first region wrote, gives each a
  trailing unit axis, joins them along that axis into [4096, 2048, 2] and lays the result out as [4096, 4096]:
  entry (o, k) of the result has row-major position `o · 4096 + k = (o · 2048 + k / 2) · 2 + k % 2`, so it is
  entry (o, k / 2, k % 2) of the joined array, which is entry (o, k / 2) of the first array when `k` is even and of
  the second when `k` is odd: the two arrays interleaved along the columns.

  Everything is generic in the element type: the layout operations move entries and compute nothing.
-/
import proofs.«418287_j86088324481052_1_alg».proof.Proof.Gen.KernelIdeal.Launch
import proofs.«418287_j86088324481052_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostVal

open Cert.KernelIdeal Cert.KernelIdeal.Gen Idealize.ShloMosaic Idealize.ShloMosaic.TcCoe

variable {F : FTy → Type} [FloatOps F]

/-- After the first stretch, `main_v0` holds the flat argument `main_arg1` laid out as [4096, 2048]. -/
theorem after0_v0 (W : Valuation τ sig (Elt F)) :
    StableHlo.after hostOps0 W (Proc.devRef .tc main_v0)
      = shapeCast S4096x2048 (W (Proc.devRef .tc main_arg1)) shapeCasts_S8388608_S4096x2048 := by
  after_results
  rfl

/-- After the second stretch, `main_v5` holds `main_v1_0` and `main_v1_1`, each with a trailing unit axis, joined
    along that axis and laid out as [4096, 4096]. -/
theorem after1_v5 (W : Valuation τ sig (Elt F)) :
    StableHlo.after hostOps1 W (Proc.devRef .tc main_v5)
      = shapeCast S4096x4096
          (concatenate S4096x2048x2 2
            [⟨S4096x2048x1, broadcastInDim S4096x2048x1 ![0, 1] bcast_S4096x2048_S4096x2048x1_0_1 (W (Proc.devRef .tc main_v1_0))⟩,
             ⟨S4096x2048x1, broadcastInDim S4096x2048x1 ![0, 1] bcast_S4096x2048_S4096x2048x1_0_1 (W (Proc.devRef .tc main_v1_1))⟩]
            concatenates_S4096x2048x1_S4096x2048x1_S4096x2048x2_d2)
          shapeCasts_S4096x2048x2_S4096x4096 := by
  after_results
  rfl

/-- The flat array laid out as [4096, 2048] reads, at (o, j), the flat array at `o · 2048 + j`: both are the
    row-major position of (o, j). -/
theorem rows_eq {α : Type} (p : S8388608.Idx → α) :
    shapeCast S4096x2048 p shapeCasts_S8388608_S4096x2048
      = fun i => p (ValueIdx.ix1 (⟨(i 0).val * 2048 + (i 1).val,
          by have := ValueIdx.idx2_lt0 i; have := ValueIdx.idx2_lt1 i; omega⟩ : Fin 8388608)) := by
  funext i
  exact shapeCast_apply p shapeCasts_S8388608_S4096x2048 i _
    (by rewrite [Shape.rowMajor_val_one, Shape.rowMajor_val_two]; rfl)

/-- At words, that is the specification's `rows`. -/
theorem rows_eq_spec (p : S8388608.Idx → BitVec 32) :
    shapeCast S4096x2048 p shapeCasts_S8388608_S4096x2048 = Cert.Spec.rows p :=
  rows_eq p

/-- Two [4096, 2048] arrays, each given a trailing unit axis, joined along it and laid out as [4096, 4096], are the
    two arrays interleaved along the columns: column `2j` from the first, column `2j + 1` from the second. -/
theorem interleave_eq {α : Type} (a b : S4096x2048.Idx → α) :
    shapeCast S4096x4096
        (concatenate S4096x2048x2 2
          [⟨S4096x2048x1, broadcastInDim S4096x2048x1 ![0, 1] bcast_S4096x2048_S4096x2048x1_0_1 a⟩,
           ⟨S4096x2048x1, broadcastInDim S4096x2048x1 ![0, 1] bcast_S4096x2048_S4096x2048x1_0_1 b⟩]
          concatenates_S4096x2048x1_S4096x2048x1_S4096x2048x2_d2)
        shapeCasts_S4096x2048x2_S4096x4096
      = Cert.Spec.interleave a b := by
  funext i
  have h0 : (i 0).val < 4096 := ValueIdx.idx2_lt0 i
  have h1 : (i 1).val < 4096 := ValueIdx.idx2_lt1 i
  have hq : (i 1).val / 2 < 2048 := by omega
  have hm : (i 1).val % 2 < 2 := by omega
  -- entry (o, k) of the [4096, 4096] layout is entry (o, k / 2, k % 2) of the joined array: the same row-major position
  refine (shapeCast_apply _ shapeCasts_S4096x2048x2_S4096x4096 i
    (ValueIdx.ix3 (⟨(i 0).val, h0⟩ : Fin 4096) (⟨(i 1).val / 2, hq⟩ : Fin 2048) (⟨(i 1).val % 2, hm⟩ : Fin 2))
    (by rewrite [Shape.rowMajor_val_three, Shape.rowMajor_val_two]
        show ((i 0).val * 2048 + (i 1).val / 2) * 2 + (i 1).val % 2 = (i 0).val * 4096 + (i 1).val
        omega)).trans ?_
  unfold Cert.Spec.interleave
  by_cases hp : (i 1).val % 2 = 0
  · -- an even column: coordinate 0 on the joined axis, so the first piece at (o, k / 2, 0), the first array at (o, k / 2)
    rw [if_pos hp]
    refine (concatenate_pair_apply_left 2 _ _ concatenates_S4096x2048x1_S4096x2048x1_S4096x2048x2_d2 _ rfl
      (ValueIdx.ix3 (⟨(i 0).val, h0⟩ : Fin 4096) (⟨(i 1).val / 2, hq⟩ : Fin 2048) (0 : Fin 1))
      (fun c => match c with
        | ⟨0, _⟩ => rfl
        | ⟨1, _⟩ => rfl
        | ⟨2, _⟩ => by show 0 = (i 1).val % 2; omega)).trans ?_
    exact broadcastInDim_apply _ bcast_S4096x2048_S4096x2048x1_0_1 a _
      (ValueIdx.ix2 (⟨(i 0).val, ValueIdx.idx2_lt0 i⟩ : Fin 4096) (⟨(i 1).val / 2, hq⟩ : Fin 2048))
      (fun c => match c with
        | ⟨0, _⟩ => by show (i 0).val = if (4096 : Nat) = 1 then 0 else (i 0).val; rw [if_neg (by decide)]
        | ⟨1, _⟩ => by show (i 1).val / 2 = if (2048 : Nat) = 1 then 0 else (i 1).val / 2; rw [if_neg (by decide)])
  · -- an odd column: coordinate 1 on the joined axis, past the first piece's extent 1, so the second piece at
    -- (o, k / 2, 0), the second array at (o, k / 2)
    rw [if_neg hp]
    refine (concatenate_pair_apply_right 2 _ _ concatenates_S4096x2048x1_S4096x2048x1_S4096x2048x2_d2 _ rfl rfl
      (ValueIdx.ix3 (⟨(i 0).val, h0⟩ : Fin 4096) (⟨(i 1).val / 2, hq⟩ : Fin 2048) (0 : Fin 1))
      (fun c => match c with
        | ⟨0, _⟩ => fun _ => rfl
        | ⟨1, _⟩ => fun _ => rfl
        | ⟨2, _⟩ => fun hc => absurd rfl hc)
      (by show 0 + 1 = (i 1).val % 2; omega)).trans ?_
    exact broadcastInDim_apply _ bcast_S4096x2048_S4096x2048x1_0_1 b _
      (ValueIdx.ix2 (⟨(i 0).val, ValueIdx.idx2_lt0 i⟩ : Fin 4096) (⟨(i 1).val / 2, hq⟩ : Fin 2048))
      (fun c => match c with
        | ⟨0, _⟩ => by show (i 0).val = if (4096 : Nat) = 1 then 0 else (i 0).val; rw [if_neg (by decide)]
        | ⟨1, _⟩ => by show (i 1).val / 2 = if (2048 : Nat) = 1 then 0 else (i 1).val / 2; rw [if_neg (by decide)])

end Cert.KernelIdeal.HostVal

end
-- ==== Proof.ValMatmulStep.lean ====
/-
  One grid point of the product call at the ideal instance: what a point adds to the accumulator.

  The body's payload is `accumulator + (x block) · (weight block)ᵀ`, the product contracted over the second
  axes of the two 1024 × 1024 blocks into a zero matrix; a first point of a contraction starts from the
  cleared accumulator, so it leaves the block product alone.  Changes of float format are the identity here.
-/
import proofs.«418287_j86088324481052_1_alg».proof.Proof.IdealMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.MatmulVal

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Matmul

/-- The product of an `x` block and a weight block contracted over their second axes: entry (p, q) is
    `∑ kk, x[p, kk] · w[q, kk]`. -/
def blockDot (x : Vec Ideal S1024x1024 .f32) (w : Vec Ideal S1024x1024 .bf16) : S1024x1024.Idx → EReal :=
  fun y => ∑ kk : Fin 1024, x (ix2 (⟨(y 0).val, idx2_lt0 y⟩ : Fin 1024) kk) * w (ix2 (⟨(y 1).val, idx2_lt1 y⟩ : Fin 1024) kk)

variable (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)

/-! ## What each case leaves is the body's payload -/

section Pieces
variable {F : FTy → Type} [FloatOps F]

/-- The offsets of a whole-block rectangle are zero. -/
theorem offs_zero : (![0, 0] : Fin 2 → Nat) = fun _ => 0 := funext fun a => by fin_cases a <;> rfl

/-- A first point stores the cleared accumulator, then the sum over it: the later store covers. -/
theorem sout1_A_pay (hc0 : cond1_0 i) (hc1 : ¬cond1_1 i) (x0 : Vec F S1024x1024 .f32) (x1 : Vec F S1024x1024 .bf16) :
    sout1_A (F := F) c i arg3 harg3 arg4 harg4 arg5 harg5 arg6 harg6 hc0 hc1 x0 x1 = k1_pay2 x0 x1 (k1_pay1 (F := F)) := by
  unfold sout1_A; rw [View.read_writes_eq_canon _ _ _ (scover1_A c i arg3 harg3 arg4 harg4 arg5 harg5 arg6 harg6 hc0 hc1 x0 x1)]
  unfold kernelRun1_A; dsimp only
  sl_unfold_words
  rw [View.canon_cons_unit_zero (S := S1024x1024) offs_zero]
  simp only [View.readAt_eq_ld, harg3.read_unread, harg4.read_unread, View.ld_unit_zero (S := S1024x1024) offs_zero, View.readCov_unit_zero (S := S1024x1024) _ offs_zero]

/-- A middle point stores once: the sum over what the point before left. -/
theorem sout1_B_pay (hc0 : ¬cond1_0 i) (hc1 : ¬cond1_1 i) (x0 : Vec F S1024x1024 .f32) (x1 : Vec F S1024x1024 .bf16) (xs0 : Vec F S1024x1024 .f32) :
    sout1_B (F := F) c i arg3 harg3 arg4 harg4 arg5 harg5 arg6 harg6 hc0 hc1 x0 x1 xs0 = k1_pay2 x0 x1 xs0 := by
  unfold sout1_B; rw [View.read_writes_eq_canon _ _ _ (scover1_B c i arg3 harg3 arg4 harg4 arg5 harg5 arg6 harg6 hc0 hc1 x0 x1 xs0)]
  unfold kernelRun1_B; dsimp only
  sl_unfold_words
  rw [View.canon_unit_zero (S := S1024x1024) offs_zero]
  simp only [View.readAt_eq_ld, harg3.read_unread, harg4.read_unread, harg6.read_unread, View.ld_unit_zero (S := S1024x1024) offs_zero]

/-- So does a last point, into the accumulator, -/
theorem sout1_C_pay (hc0 : ¬cond1_0 i) (hc1 : cond1_1 i) (x0 : Vec F S1024x1024 .f32) (x1 : Vec F S1024x1024 .bf16) (xs0 : Vec F S1024x1024 .f32) :
    sout1_C (F := F) c i arg3 harg3 arg4 harg4 arg5 harg5 arg6 harg6 hc0 hc1 x0 x1 xs0 = k1_pay2 x0 x1 xs0 := by
  unfold sout1_C; rw [View.read_writes_eq_canon _ _ _ (scover1_C c i arg3 harg3 arg4 harg4 arg5 harg5 arg6 harg6 hc0 hc1 x0 x1 xs0)]
  unfold kernelRun1_C; dsimp only
  sl_unfold_words
  rw [View.canon_unit_zero (S := S1024x1024) offs_zero]
  simp only [View.readAt_eq_ld, harg3.read_unread, harg4.read_unread, harg6.read_unread, View.ld_unit_zero (S := S1024x1024) offs_zero]

/-- and what it then copies into the result block is the accumulator it has just stored. -/
theorem out1_C_2_pay (hc0 : ¬cond1_0 i) (hc1 : cond1_1 i) (x0 : Vec F S1024x1024 .f32) (x1 : Vec F S1024x1024 .bf16) (xs0 : Vec F S1024x1024 .f32) :
    out1_C_2 (F := F) c i arg3 harg3 arg4 harg4 arg5 harg5 arg6 harg6 hc0 hc1 x0 x1 xs0 = k1_pay2 x0 x1 xs0 := by
  unfold out1_C_2; rw [View.read_writes_eq_canon _ _ _ (cover1_C_2 c i arg3 harg3 arg4 harg4 arg5 harg5 arg6 harg6 hc0 hc1 x0 x1 xs0)]
  unfold kernelRun1_C; dsimp only
  sl_unfold_words
  rw [View.canon_unit_zero (S := S1024x1024) offs_zero]
  simp only [View.readAt_eq_ld, harg3.read_unread, harg4.read_unread, harg6.read_unread, View.ld_unit_zero (S := S1024x1024) offs_zero, View.readCov_unit_zero (S := S1024x1024) _ offs_zero]

end Pieces

/-! ## The payload at an entry -/

/-- The product's left operand is read at the output's row … -/
theorem dot_lhs_0 (j : S1024x1024.Idx) (q : Cert.KernelIdeal.dot_S1024x1024_S1024x1024_S1024x1024_1_1_0_0_n_n.contr.Idx) :
    (Cert.KernelIdeal.dot_S1024x1024_S1024x1024_S1024x1024_1_1_0_0_n_n.lhsIdx j q 0).val = (j 0).val := by
  unfold DotDims.lhsIdx
  rw [dif_neg (show ¬(0 : Fin S1024x1024.rank) ∈ Cert.KernelIdeal.dot_S1024x1024_S1024x1024_S1024x1024_1_1_0_0_n_n.lhsBatch by decide), dif_pos (show (0 : Fin S1024x1024.rank) ∈ Cert.KernelIdeal.dot_S1024x1024_S1024x1024_S1024x1024_1_1_0_0_n_n.lhsNonContracting by decide)]
  rfl
/-- … and the contraction's coordinate; -/
theorem dot_lhs_1 (j : S1024x1024.Idx) (q : Cert.KernelIdeal.dot_S1024x1024_S1024x1024_S1024x1024_1_1_0_0_n_n.contr.Idx) :
    (Cert.KernelIdeal.dot_S1024x1024_S1024x1024_S1024x1024_1_1_0_0_n_n.lhsIdx j q 1).val = (q ⟨0, by decide⟩).val :=
  Cert.KernelIdeal.dot_S1024x1024_S1024x1024_S1024x1024_1_1_0_0_n_n.lhsIdx_val_of_single rfl j q
/-- the right operand at the output's column … -/
theorem dot_rhs_0 (j : S1024x1024.Idx) (q : Cert.KernelIdeal.dot_S1024x1024_S1024x1024_S1024x1024_1_1_0_0_n_n.contr.Idx) :
    (Cert.KernelIdeal.dot_S1024x1024_S1024x1024_S1024x1024_1_1_0_0_n_n.rhsIdx j q 0).val = (j 1).val := by
  unfold DotDims.rhsIdx
  rw [dif_neg (show ¬(0 : Fin S1024x1024.rank) ∈ Cert.KernelIdeal.dot_S1024x1024_S1024x1024_S1024x1024_1_1_0_0_n_n.rhsBatch by decide), dif_pos (show (0 : Fin S1024x1024.rank) ∈ Cert.KernelIdeal.dot_S1024x1024_S1024x1024_S1024x1024_1_1_0_0_n_n.rhsNonContracting by decide)]
  rfl
/-- … and the contraction's coordinate. -/
theorem dot_rhs_1 (j : S1024x1024.Idx) (q : Cert.KernelIdeal.dot_S1024x1024_S1024x1024_S1024x1024_1_1_0_0_n_n.contr.Idx) :
    (Cert.KernelIdeal.dot_S1024x1024_S1024x1024_S1024x1024_1_1_0_0_n_n.rhsIdx j q 1).val = (q ⟨0, by decide⟩).val :=
  Cert.KernelIdeal.dot_S1024x1024_S1024x1024_S1024x1024_1_1_0_0_n_n.rhsIdx_val_of_single rfl j q

/-- The product of two blocks into a zero matrix, at an entry: the sum over the contraction. -/
theorem dot_zero_apply (a : FVec Ideal S1024x1024 .bf16) (b : FVec Ideal S1024x1024 .bf16) (p q : Fin 1024) :
    matmul (F := Ideal) Cert.KernelIdeal.dot_S1024x1024_S1024x1024_S1024x1024_1_1_0_0_n_n none a b (constant (F := Ideal) S1024x1024 .f32 0x00000000#32) (ix2 p q)
      = ∑ kk : Fin 1024, a (ix2 p kk) * b (ix2 q kk) := by
  simp only [matmul]
  rw [Ideal.matmul_constant_zero_apply, ← Equiv.sum_comp (ValueIdx.contrEquiv1 Cert.KernelIdeal.dot_S1024x1024_S1024x1024_S1024x1024_1_1_0_0_n_n 1024 rfl rfl).symm]
  refine Finset.sum_congr rfl fun k _ => ?_
  have hk := ValueIdx.contrEquiv1_symm_val Cert.KernelIdeal.dot_S1024x1024_S1024x1024_S1024x1024_1_1_0_0_n_n 1024 rfl rfl k
  have el : Cert.KernelIdeal.dot_S1024x1024_S1024x1024_S1024x1024_1_1_0_0_n_n.lhsIdx (ix2 p q) ((ValueIdx.contrEquiv1 Cert.KernelIdeal.dot_S1024x1024_S1024x1024_S1024x1024_1_1_0_0_n_n 1024 rfl rfl).symm k) = ix2 p k := funext fun a => Fin.ext (by
    match a with
    | ⟨0, _⟩ => exact dot_lhs_0 _ _
    | ⟨1, _⟩ => exact (dot_lhs_1 _ _).trans hk)
  have er : Cert.KernelIdeal.dot_S1024x1024_S1024x1024_S1024x1024_1_1_0_0_n_n.rhsIdx (ix2 p q) ((ValueIdx.contrEquiv1 Cert.KernelIdeal.dot_S1024x1024_S1024x1024_S1024x1024_1_1_0_0_n_n 1024 rfl rfl).symm k) = ix2 q k := funext fun a => Fin.ext (by
    match a with
    | ⟨0, _⟩ => exact dot_rhs_0 _ _
    | ⟨1, _⟩ => exact (dot_rhs_1 _ _).trans hk)
  rw [el, er]

/-- The body's payload at an entry: the accumulator there plus the block product's entry. -/
theorem k1_pay2_apply (x0 : Vec Ideal S1024x1024 .f32) (x1 : Vec Ideal S1024x1024 .bf16) (a : Vec Ideal S1024x1024 .f32) (p q : Fin 1024) :
    k1_pay2 (F := Ideal) x0 x1 a (ix2 p q) = a (ix2 p q) + ∑ kk : Fin 1024, x0 (ix2 p kk) * x1 (ix2 q kk) := by
  unfold k1_pay2
  rw [shapeCast_self, shapeCast_self]
  refine (addf_apply _ _ _).trans ?_
  exact congrArg (a (ix2 p q) + ·) (dot_zero_apply _ _ p q)

/-- The cleared accumulator is zero everywhere. -/
theorem k1_pay1_apply (y : S1024x1024.Idx) : k1_pay1 (F := Ideal) y = 0 := by
  unfold k1_pay1
  rw [shapeCast_self]
  exact Ideal.ofBits_zero_f32

/-- The block product at explicit coordinates. -/
theorem blockDot_ix2 (x0 : Vec Ideal S1024x1024 .f32) (x1 : Vec Ideal S1024x1024 .bf16) (p q : Fin 1024) :
    blockDot x0 x1 (ix2 p q) = ∑ kk : Fin 1024, x0 (ix2 p kk) * x1 (ix2 q kk) := rfl

/-! ## The four cases -/

/-- A first point leaves the block product in the accumulator. -/
theorem sout1_A_eq (hc0 : cond1_0 i) (hc1 : ¬cond1_1 i) (x0 : Vec Ideal S1024x1024 .f32) (x1 : Vec Ideal S1024x1024 .bf16) :
    sout1_A (F := Ideal) c i arg3 harg3 arg4 harg4 arg5 harg5 arg6 harg6 hc0 hc1 x0 x1 = blockDot x0 x1 := by
  refine (sout1_A_pay (F := Ideal) c i arg3 harg3 arg4 harg4 arg5 harg5 arg6 harg6 hc0 hc1 x0 x1).trans ?_
  funext y
  obtain ⟨p, q, rfl⟩ : ∃ (p q : Fin 1024), y = ix2 p q := ⟨y 0, y 1, eq_ix2 y⟩
  refine (k1_pay2_apply x0 x1 (k1_pay1 (F := Ideal)) p q).trans ?_
  rw [k1_pay1_apply, zero_add]
  rfl

/-- A middle point adds the block product to what the point before left. -/
theorem sout1_B_eq (hc0 : ¬cond1_0 i) (hc1 : ¬cond1_1 i) (x0 : Vec Ideal S1024x1024 .f32) (x1 : Vec Ideal S1024x1024 .bf16) (xs0 : Vec Ideal S1024x1024 .f32) :
    sout1_B (F := Ideal) c i arg3 harg3 arg4 harg4 arg5 harg5 arg6 harg6 hc0 hc1 x0 x1 xs0 = fun y => xs0 y + blockDot x0 x1 y := by
  refine (sout1_B_pay (F := Ideal) c i arg3 harg3 arg4 harg4 arg5 harg5 arg6 harg6 hc0 hc1 x0 x1 xs0).trans ?_
  funext y
  obtain ⟨p, q, rfl⟩ : ∃ (p q : Fin 1024), y = ix2 p q := ⟨y 0, y 1, eq_ix2 y⟩
  exact k1_pay2_apply x0 x1 xs0 p q

/-- So does a last point, -/
theorem sout1_C_eq (hc0 : ¬cond1_0 i) (hc1 : cond1_1 i) (x0 : Vec Ideal S1024x1024 .f32) (x1 : Vec Ideal S1024x1024 .bf16) (xs0 : Vec Ideal S1024x1024 .f32) :
    sout1_C (F := Ideal) c i arg3 harg3 arg4 harg4 arg5 harg5 arg6 harg6 hc0 hc1 x0 x1 xs0 = fun y => xs0 y + blockDot x0 x1 y := by
  refine (sout1_C_pay (F := Ideal) c i arg3 harg3 arg4 harg4 arg5 harg5 arg6 harg6 hc0 hc1 x0 x1 xs0).trans ?_
  funext y
  obtain ⟨p, q, rfl⟩ : ∃ (p q : Fin 1024), y = ix2 p q := ⟨y 0, y 1, eq_ix2 y⟩
  exact k1_pay2_apply x0 x1 xs0 p q

/-- which also copies the new accumulator into the result block. -/
theorem out1_C_2_eq (hc0 : ¬cond1_0 i) (hc1 : cond1_1 i) (x0 : Vec Ideal S1024x1024 .f32) (x1 : Vec Ideal S1024x1024 .bf16) (xs0 : Vec Ideal S1024x1024 .f32) :
    out1_C_2 (F := Ideal) c i arg3 harg3 arg4 harg4 arg5 harg5 arg6 harg6 hc0 hc1 x0 x1 xs0 = fun y => xs0 y + blockDot x0 x1 y := by
  refine (out1_C_2_pay (F := Ideal) c i arg3 harg3 arg4 harg4 arg5 harg5 arg6 harg6 hc0 hc1 x0 x1 xs0).trans ?_
  funext y
  obtain ⟨p, q, rfl⟩ : ∃ (p q : Fin 1024), y = ix2 p q := ⟨y 0, y 1, eq_ix2 y⟩
  exact k1_pay2_apply x0 x1 xs0 p q

end Cert.KernelIdeal.MatmulVal

end
-- ==== Proof.ValMatmul.lean ====
/-
  The product call's result array after the run, at the ideal instance, as a function of the two
  operand arrays the region is entered with.

  The grid is 8 × 4 × 4, row-major: point `t` has block row `t / 16` of `x` and of the result, block row
  `t / 4 % 4` of the weights (block column of the result), and contraction block `t % 4`.  Along a
  contraction the accumulator after the point with contraction block `k` holds, at (p, q), the partial
  sum over the first `k + 1` column blocks of `∑ x[r, ·] · w[s, ·]` for the row `r` and the weight row `s`
  that (p, q) stands for: the first point leaves its block product, every later one adds its own.  The
  four column blocks of 1024 together are the 4096 columns, so at the last point of a contraction the
  accumulator — and the result block copied from it, which is written back there — holds the whole sum.
  Those write-backs, one per result block, cover the result array.
-/
import proofs.«418287_j86088324481052_1_alg».proof.Proof.ValMatmulStep
import proofs.«418287_j86088324481052_1_alg».proof.Proof.Spec

set_option maxRecDepth 16384

noncomputable section

open scoped BigOperators

namespace Cert.KernelIdeal.MatmulVal

open Idealize.ShloMosaic Idealize.ShloMosaic.TcCoe Idealize.ShloMosaic.ValueIdx
open Idealize.ShloMosaic.Pipeline (Dat)
open Cert.KernelIdeal Cert.KernelIdeal.Gen Cert.KernelIdeal.Matmul

/-! ## Sums over the 4096 columns, block by block -/

/-- A sum over 4096 columns is the sum over the four blocks of 1024 of the sums inside each block:
    column `k` is column `k % 1024` of block `k / 1024`. -/
theorem sum_blocks {M : Type} [AddCommMonoid M] (g : Fin 4096 → M) :
    ∑ k : Fin 4096, g k = ∑ a : Fin 4, ∑ b : Fin 1024, g ⟨a.val * 1024 + b.val, by omega⟩ := by
  rw [← Equiv.sum_comp (finProdFinEquiv : Fin 4 × Fin 1024 ≃ Fin 4096) g, Fintype.sum_prod_type]
  refine Finset.sum_congr rfl fun a _ => Finset.sum_congr rfl fun b _ => congrArg g (Fin.ext ?_)
  show b.val + 1024 * a.val = a.val * 1024 + b.val
  omega

/-- The part of `∑ k, x[r, k] · w[s, k]` that column block `k'` contributes (columns `1024·k'` to
    `1024·k' + 1023`); there are four blocks, and beyond them nothing. -/
def kpart (x : (⟨2, ![8192, 4096]⟩ : Shape).Idx → EReal) (w : (⟨2, ![4096, 4096]⟩ : Shape).Idx → EReal)
    (r : Fin 8192) (s : Fin 4096) (k' : ℕ) : EReal :=
  if h : k' < 4 then
    ∑ kk : Fin 1024, x (ix2 r (⟨k' * 1024 + kk.val, by omega⟩ : Fin 4096)) * w (ix2 s (⟨k' * 1024 + kk.val, by omega⟩ : Fin 4096))
  else 0

/-- The four blocks' parts add up to the whole sum. -/
theorem kpart_sum (x : (⟨2, ![8192, 4096]⟩ : Shape).Idx → EReal) (w : (⟨2, ![4096, 4096]⟩ : Shape).Idx → EReal)
    (r : Fin 8192) (s : Fin 4096) :
    ∑ k' ∈ Finset.range 4, kpart x w r s k' = ∑ k : Fin 4096, x (ix2 r k) * w (ix2 s k) := by
  rw [Finset.sum_range, sum_blocks (fun k => x (ix2 r k) * w (ix2 s k))]
  refine Finset.sum_congr rfl fun a _ => ?_
  unfold kpart
  rw [dif_pos a.isLt]

/-! ## The blocks as parts of their arrays -/

variable (V : (c : Dev nD) → (b : Ref sig .tc) → Buf (Elt Ideal) ((c : Thread nD τ).loc b))

/-- The array `x` as the region finds it. -/
abbrev xarr (c : Dev nD) : Vec Ideal S8192x4096 .f32 := V c main_arg0
/-- The weight array as the region finds it. -/
abbrev warr (c : Dev nD) : Vec Ideal S4096x4096 .bf16 := V c main_v5
/-- The block of `x` at point `t`. -/
abbrev xblk (c : Dev nD) (t : Fin cfg1.N) : Vec Ideal S1024x1024 .f32 := iblk1 V c 0 t
/-- The block of weights at point `t`. -/
abbrev wblk (c : Dev nD) (t : Fin cfg1.N) : Vec Ideal S1024x1024 .bf16 := iblk1 V c 1 t

/-- The printed index maps against the point number, decided over the grid: `x`'s block is (t / 16, t % 4),
    the weights' (t / 4 % 4, t % 4), the result's (t / 16, t / 4 % 4). -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val / 16 ∧ win1_2.index t (1 : Fin 2) = t.val / 4 % 4 :=
  (by decide +kernel : ∀ t : Fin grid1.N, _)

/-- The block of `x` at point `t`, at (p, q), is the array's entry at row 1024·(t / 16) + p, column
    1024·(t % 4) + q. -/
theorem xblk_apply (c : Dev nD) (t : Fin cfg1.N) (p q : Fin 1024) (i : S8192x4096.Idx)
    (hi0 : (i 0).val = t.val / 16 * 1024 + p.val) (hi1 : (i 1).val = t.val % 4 * 1024 + q.val) :
    xblk V c t (ix2 p q) = xarr V c i := by
  obtain ⟨e00, e01, -⟩ := idx_facts1 t
  show V c main_arg0 (((cfg1.win 0).blk t).view.emb (ix2 p q)) = V c main_arg0 i
  refine congrArg _ (funext fun a => Fin.ext ?_)
  match a with
  | ⟨0, _⟩ => show win1_0.index t (0 : Fin 2) * 1024 + 1 * p.val = (i 0).val; rw [e00, hi0]; omega
  | ⟨1, _⟩ => show win1_0.index t (1 : Fin 2) * 1024 + 1 * q.val = (i 1).val; rw [e01, hi1]; omega

/-- The block of weights at point `t`, at (p, q), is the array's entry at row 1024·(t / 4 % 4) + p, column
    1024·(t % 4) + q. -/
theorem wblk_apply (c : Dev nD) (t : Fin cfg1.N) (p q : Fin 1024) (i : S4096x4096.Idx)
    (hi0 : (i 0).val = t.val / 4 % 4 * 1024 + p.val) (hi1 : (i 1).val = t.val % 4 * 1024 + q.val) :
    wblk V c t (ix2 p q) = warr V c i := by
  obtain ⟨-, -, e10, e11, -⟩ := idx_facts1 t
  show V c main_v5 (((cfg1.win 1).blk t).view.emb (ix2 p q)) = V c main_v5 i
  refine congrArg _ (funext fun a => Fin.ext ?_)
  match a with
  | ⟨0, _⟩ => show win1_1.index t (0 : Fin 2) * 1024 + 1 * p.val = (i 0).val; rw [e10, hi0]; omega
  | ⟨1, _⟩ => show win1_1.index t (1 : Fin 2) * 1024 + 1 * q.val = (i 1).val; rw [e11, hi1]; omega

/-- The block product at point `t`, at (p, q), is the part of `∑ k, x[r, k] · w[s, k]` over the point's
    column block, for the row `r` of `x` and the weight row `s` that (p, q) stands for at `t`. -/
theorem blockDot_eq (c : Dev nD) (t : Fin cfg1.N) (p q : Fin 1024) (r : Fin 8192) (s : Fin 4096)
    (hr : r.val = t.val / 16 * 1024 + p.val) (hs : s.val = t.val / 4 % 4 * 1024 + q.val)
    (k' : ℕ) (hk : k' = t.val % 4) :
    blockDot (xblk V c t) (wblk V c t) (ix2 p q) = kpart (xarr V c) (warr V c) r s k' := by
  subst hk
  have h4 : t.val % 4 < 4 := Nat.mod_lt _ (by decide)
  unfold blockDot kpart
  rw [dif_pos h4]
  refine Finset.sum_congr rfl fun kk _ => ?_
  show xblk V c t (ix2 p kk) * wblk V c t (ix2 q kk) = _
  rw [xblk_apply V c t p kk (ix2 r (⟨t.val % 4 * 1024 + kk.val, by omega⟩ : Fin 4096)) hr rfl,
    wblk_apply V c t q kk (ix2 s (⟨t.val % 4 * 1024 + kk.val, by omega⟩ : Fin 4096)) hs rfl]

/-! ## The accumulator after each point -/

/-- The accumulator after the point at position `n`, at (p, q): the partial sum of `∑ k, x[r, k] · w[s, k]` over
    the column blocks up to the point's own, `r` and `s` the rows (p, q) stands for at the point.  By induction
    on the point: a first point of a contraction leaves its block product, a later one adds its own to what
    the point before — same rows, the column block before — left. -/
theorem acc_eq (c : Dev nD) (n : ℕ) : ∀ (hn : n < cfg1.N) (p q : Fin 1024) (r : Fin 8192) (s : Fin 4096),
    r.val = n / 16 * 1024 + p.val → s.val = n / 4 % 4 * 1024 + q.val →
    (outsAt1 V c n hn).2 (ix2 p q) = ∑ k' ∈ Finset.range (n % 4 + 1), kpart (xarr V c) (warr V c) r s k' := by
  induction n using Nat.strong_induction_on with
  | _ n ih =>
    intro hn p q r s hr hs
    by_cases h0 : n % 4 = 0
    · have h1 : ¬n % 4 = 3 := by omega
      rw [outsAt1_A V c ⟨n, hn⟩ h0 h1]
      dsimp only
      rw [sout1_A_eq c (grid1.coords ⟨n, hn⟩) (ms1_0 ⟨n, hn⟩) (hs1_0 ⟨n, hn⟩) (ms1_1 ⟨n, hn⟩) (hs1_1 ⟨n, hn⟩)
        (ms1_2 ⟨n, hn⟩) (hs1_2 ⟨n, hn⟩) scM1_0 (Memref.isWhole_whole _) ((hcond1_0 ⟨n, hn⟩).mpr h0)
        (fun h => h1 ((hcond1_1 ⟨n, hn⟩).mp h)) (iblk1 V c 0 ⟨n, hn⟩) (iblk1 V c 1 ⟨n, hn⟩)]
      rw [show n % 4 + 1 = 0 + 1 from by omega, Finset.sum_range_one]
      exact blockDot_eq V c ⟨n, hn⟩ p q r s hr hs 0 h0.symm
    · have hn' : n - 1 < cfg1.N := lt_of_le_of_lt (Nat.sub_le n 1) hn
      have hih := ih (n - 1) (by omega) hn' p q r s (by omega) (by omega)
      have hk : (n - 1) % 4 + 1 = n % 4 := by omega
      by_cases h1 : n % 4 = 3
      · rw [outsAt1_C V c ⟨n, hn⟩ h0 h1]
        dsimp only
        rw [sout1_C_eq c (grid1.coords ⟨n, hn⟩) (ms1_0 ⟨n, hn⟩) (hs1_0 ⟨n, hn⟩) (ms1_1 ⟨n, hn⟩) (hs1_1 ⟨n, hn⟩)
          (ms1_2 ⟨n, hn⟩) (hs1_2 ⟨n, hn⟩) scM1_0 (Memref.isWhole_whole _) (fun h => h0 ((hcond1_0 ⟨n, hn⟩).mp h))
          ((hcond1_1 ⟨n, hn⟩).mpr h1) (iblk1 V c 0 ⟨n, hn⟩) (iblk1 V c 1 ⟨n, hn⟩) (outsAt1 V c (n - 1) hn').2]
        show (outsAt1 V c (n - 1) hn').2 (ix2 p q) + blockDot (iblk1 V c 0 ⟨n, hn⟩) (iblk1 V c 1 ⟨n, hn⟩) (ix2 p q) = _
        rw [hih, ← hk, Finset.sum_range_succ _ ((n - 1) % 4 + 1)]
        exact congrArg _ (blockDot_eq V c ⟨n, hn⟩ p q r s hr hs _ hk)
      · rw [outsAt1_B V c ⟨n, hn⟩ h0 h1]
        dsimp only
        rw [sout1_B_eq c (grid1.coords ⟨n, hn⟩) (ms1_0 ⟨n, hn⟩) (hs1_0 ⟨n, hn⟩) (ms1_1 ⟨n, hn⟩) (hs1_1 ⟨n, hn⟩)
          (ms1_2 ⟨n, hn⟩) (hs1_2 ⟨n, hn⟩) scM1_0 (Memref.isWhole_whole _) (fun h => h0 ((hcond1_0 ⟨n, hn⟩).mp h))
          (fun h => h1 ((hcond1_1 ⟨n, hn⟩).mp h)) (iblk1 V c 0 ⟨n, hn⟩) (iblk1 V c 1 ⟨n, hn⟩) (outsAt1 V c (n - 1) hn').2]
        show (outsAt1 V c (n - 1) hn').2 (ix2 p q) + blockDot (iblk1 V c 0 ⟨n, hn⟩) (iblk1 V c 1 ⟨n, hn⟩) (ix2 p q) = _
        rw [hih, ← hk, Finset.sum_range_succ _ ((n - 1) % 4 + 1)]
        exact congrArg _ (blockDot_eq V c ⟨n, hn⟩ p q r s hr hs _ hk)

/-- At the last point of a contraction the result block is the new accumulator. -/
theorem out_eq_acc (c : Dev nD) (t : Fin cfg1.N) (h1 : t.val % 4 = 3) :
    (outsAt1 V c t.val t.isLt).1 = (outsAt1 V c t.val t.isLt).2 := by
  have h0 : ¬t.val % 4 = 0 := by omega
  have hn' : t.val - 1 < cfg1.N := lt_of_le_of_lt (Nat.sub_le t.val 1) t.isLt
  rw [outsAt1_C V c t h0 h1]
  dsimp only
  rw [out1_C_2_eq c (grid1.coords t) (ms1_0 t) (hs1_0 t) (ms1_1 t) (hs1_1 t) (ms1_2 t) (hs1_2 t) scM1_0
      (Memref.isWhole_whole _) (fun h => h0 ((hcond1_0 t).mp h)) ((hcond1_1 t).mpr h1) (iblk1 V c 0 t) (iblk1 V c 1 t)
      (outsAt1 V c (t.val - 1) hn').2,
    sout1_C_eq c (grid1.coords t) (ms1_0 t) (hs1_0 t) (ms1_1 t) (hs1_1 t) (ms1_2 t) (hs1_2 t) scM1_0
      (Memref.isWhole_whole _) (fun h => h0 ((hcond1_0 t).mp h)) ((hcond1_1 t).mpr h1) (iblk1 V c 0 t) (iblk1 V c 1 t)
      (outsAt1 V c (t.val - 1) hn').2]

/-! ## What each point writes back, and the array after the run -/

/-- What a last point of a contraction writes back is its block of `x · wᵀ` of the two arrays the region is
    entered with: the accumulator there holds the sum over all four column blocks. -/
theorem flushed_eq (c : Dev nD) (t : Fin cfg1.N) (hf : (cfg1.win 2).flush t = true) :
    (dat1 (F := Ideal) V c).flushed 2 t
      = ((cfg1.win 2).blk t).view.read (Elt Ideal) (Cert.Spec.mmT (V c main_arg0) (V c main_v5)) := by
  have h1 : t.val % 4 = 3 := (flush1_2 t).mp hf
  show (cfg1.win 2).cut (grid1.coords t) ((dat1 (F := Ideal) V c).after 2 t) = _
  rw [after1_2, out_eq_acc V c t h1]
  obtain ⟨-, -, -, -, e20, e21⟩ := idx_facts1 t
  funext j
  obtain ⟨p, q, rfl⟩ : ∃ (p : Fin 1024) (q : Fin 1024), j = ix2 p q := ⟨j 0, j 1, eq_ix2 j⟩
  have r0 : ((((cfg1.win 2).blk t).view.emb (ix2 p q)) 0).val = t.val / 16 * 1024 + p.val := by
    show win1_2.index t (0 : Fin 2) * 1024 + 1 * p.val = _; rw [e20]; omega
  have r1 : ((((cfg1.win 2).blk t).view.emb (ix2 p q)) 1).val = t.val / 4 % 4 * 1024 + q.val := by
    show win1_2.index t (1 : Fin 2) * 1024 + 1 * q.val = _; rw [e21]; omega
  refine (acc_eq V c t.val t.isLt p q
    (⟨((((cfg1.win 2).blk t).view.emb (ix2 p q)) 0).val, idx2_lt0 _⟩ : Fin 8192)
    (⟨((((cfg1.win 2).blk t).view.emb (ix2 p q)) 1).val, idx2_lt1 _⟩ : Fin 4096) r0 r1).trans ?_
  rw [show t.val % 4 + 1 = 4 from by omega, kpart_sum]
  rfl

/-- An index of the result is in point `t`'s block iff each coordinate is in the block's range on its axis. -/
theorem mem_blk (t : Fin cfg1.N) (i : S8192x4096.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v6).slice (win1_2.rect t)).set ↔ _
  rw [View.set_slice_whole, Rect.mem_set_unit]
  exact Iff.rfl

/-- Row `r`, column `s` of the result lies in the block written back at the last point of the contraction of
    block row `r / 1024` and block column `s / 1024`: point `16·(r / 1024) + 4·(s / 1024) + 3`. -/
theorem cover (i : S8192x4096.Idx) :
    ∃ t : Fin cfg1.N, (cfg1.win 2).flush t = true ∧ i ∈ ((cfg1.win 2).blk t).view.set := by
  have hi0 : (i 0).val < 8192 := idx2_lt0 i
  have hi1 : (i 1).val < 4096 := idx2_lt1 i
  obtain ⟨t, ht⟩ : ∃ t : Fin cfg1.N, t.val = (i 0).val / 1024 * 16 + (i 1).val / 1024 * 4 + 3 :=
    ⟨⟨(i 0).val / 1024 * 16 + (i 1).val / 1024 * 4 + 3, by show _ < grid1.N; rw [N_1]; omega⟩, rfl⟩
  obtain ⟨-, -, -, -, e20, e21⟩ := idx_facts1 t
  refine ⟨t, (flush1_2 t).mpr (by omega), ?_⟩
  rw [mem_blk]
  intro a
  match a with
  | ⟨0, _⟩ =>
    show win1_2.index t (0 : Fin 2) * 1024 ≤ (i 0).val ∧ (i 0).val < win1_2.index t (0 : Fin 2) * 1024 + 1024
    rw [e20, ht]; omega
  | ⟨1, _⟩ =>
    show win1_2.index t (1 : Fin 2) * 1024 ≤ (i 1).val ∧ (i 1).val < win1_2.index t (1 : Fin 2) * 1024 + 1024
    rw [e21, ht]; omega

/-- The result array after the run: `x · wᵀ` of the two arrays the region is entered with. -/
theorem arrOut (c : Dev nD) :
    (dat1 (F := Ideal) V c).arrAt 2 cfg1.N = Cert.Spec.mmT (V c main_arg0) (V c main_v5) :=
  (dat1 (F := Ideal) V c).arrAt_eq_of_cover 2 (Cert.Spec.mmT (V c main_arg0) (V c main_v5))
    (fun t hf => flushed_eq V c t hf) cover

end Cert.KernelIdeal.MatmulVal

end
-- ==== Proof.Bridge.lean ====
/-
  The result of the kernel's program at the ideal instance is the specification's function of the launch
  contents of the three arguments.

  Reading the folds of the run backwards: the result buffer holds `x · wᵀ` of the arrays the product call was
  entered with; `x` is still the launch array; the weight matrix is the column interleaving of the unpacking
  call's two results; those are the low- and high-nibble weights of the [4096, 2048] layout of the packed
  words and of the scales, which are still the launch arrays, the layout being the row-major reshape.
-/
import proofs.«418287_j86088324481052_1_alg».proof.Proof.IdealRun
import proofs.«418287_j86088324481052_1_alg».proof.Proof.ValDequant
import proofs.«418287_j86088324481052_1_alg».proof.Proof.ValHost
import proofs.«418287_j86088324481052_1_alg».proof.Proof.ValMatmul
import proofs.«418287_j86088324481052_1_alg».proof.Proof.Spec

set_option maxRecDepth 16384

noncomputable section

namespace Cert.KernelIdeal.Bridge

open Idealize.ShloMosaic Idealize.ShloMosaic.TcCoe Idealize.SL.Sem
open Cert.KernelIdeal Cert.KernelIdeal.Gen Cert.KernelIdeal.Run

variable (m : (ℓ : Loc nD τ sig) → Buf (Elt Ideal) ℓ)

/-- The reshape is the only operation before the unpacking call, and it writes neither the scales nor `x`. -/
theorem V1_arg2 (c : Dev nD) : Run.V1 m c main_arg2 = m ((c : Thread nD τ).loc main_arg2) :=
  (StableHlo.after_of_writes_sub hostOps0 _ hostOps0_writes (by decide)).trans rfl

/-- The unpacking call is entered with the packed words laid out in rows. -/
theorem V1_v0 (c : Dev nD) : Run.V1 m c main_v0 = Cert.Spec.rows (m ((c : Thread nD τ).loc main_arg1)) :=
  (HostVal.after0_v0 (W0 m c)).trans (HostVal.rows_eq_spec _)

/-- Its two results after its run: the low- and the high-nibble weights. -/
theorem W2_lo (c : Dev nD) : W2 m c (Proc.devRef .tc main_v1_0)
    = Cert.Spec.loArr (Cert.Spec.rows (m ((c : Thread nD τ).loc main_arg1))) (m ((c : Thread nD τ).loc main_arg2)) := by
  refine (W2_arr m c 2).trans ((DequantVal.arrLo (Run.V1 m) c).trans ?_)
  rw [V1_v0, V1_arg2]
theorem W2_hi (c : Dev nD) : W2 m c (Proc.devRef .tc main_v1_1)
    = Cert.Spec.hiArr (Cert.Spec.rows (m ((c : Thread nD τ).loc main_arg1))) (m ((c : Thread nD τ).loc main_arg2)) := by
  refine (W2_arr m c 3).trans ((DequantVal.arrHi (Run.V1 m) c).trans ?_)
  rw [V1_v0, V1_arg2]

/-- The product call is entered with the dequantised weight matrix … -/
theorem V3_v5 (c : Dev nD) : Run.V3 m c main_v5
    = Cert.Spec.wgt (m ((c : Thread nD τ).loc main_arg1)) (m ((c : Thread nD τ).loc main_arg2)) := by
  refine (HostVal.after1_v5 (W2 m c)).trans ((HostVal.interleave_eq _ _).trans ?_)
  rw [W2_lo, W2_hi]; rfl

/-- … and with `x` as launched. -/
theorem V3_arg0 (c : Dev nD) : Run.V3 m c main_arg0 = m ((c : Thread nD τ).loc main_arg0) :=
  calc W3 m c (Proc.devRef .tc main_arg0)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- The result buffer after the run. -/
theorem result_eq (c : Dev nD) : (Matmul.dat1 (F := Ideal) (Run.V3 m) c).arrAt 2 cfg1.N
    = Cert.Spec.G (m ((c : Thread nD τ).loc main_arg0)) (m ((c : Thread nD τ).loc main_arg1)) (m ((c : Thread nD τ).loc main_arg2)) := by
  refine (MatmulVal.arrOut (Run.V3 m) c).trans ?_
  rw [V3_v5, V3_arg0]; rfl

end Cert.KernelIdeal.Bridge

end
-- ==== Proof.RefValue.lean ====
import proofs.«418287_j86088324481052_1_alg».proof.Proof.Gen.ReferenceIdeal.Run
import proofs.«418287_j86088324481052_1_alg».proof.Proof.Gen.ReferenceIdeal.Read
import proofs.«418287_j86088324481052_1_alg».proof.Proof.Spec

/-!
  The reference program's result is the function `Cert.Spec.G` of its three arguments.

  The reference splits every packed word into its two nibbles (each minus 8), lays the two next to each other as the
  two columns of an [8388608, 2] array, and reshapes that array, row-major, first to a flat array of 16777216 entries
  and then to [4096, 4096].  Entry (o, k) of the result is therefore flat position o·4096 + k, which is column
  (o·4096 + k) mod 2 = k mod 2 of row (o·4096 + k) / 2 = o·2048 + k / 2: the low nibble of word k / 2 of row o at an
  even k, the nibble above it at an odd k.  Converted to a real and multiplied by the row's scale this is the weight
  matrix of the specification, and the contraction with `x` over the columns is the specification's sum.
-/

noncomputable section

open scoped BigOperators

namespace Cert.RefValue

open Cert.ReferenceIdeal Cert.ReferenceIdeal.Gen Cert.ReferenceIdeal.Read Idealize.ShloMosaic Idealize.ShloMosaic.ValueIdx

variable {F : FTy → Type} [FloatOps F]

/-- The first nibble stage: every word's low nibble minus 8. -/
theorem v3_apply (x1 : (⟨S8388608, .i32⟩ : BufTy).Contents (Elt F)) (i : S8388608.Idx) :
    val_main_v3 (F := F) x1 i = Spec.lo (x1 i) := by
  rw [val_main_v3_apply, val_main_v1_apply, val_main_v0_apply, val_main_c_apply, val_main_v2_apply, val_main_c_0_apply]
  rfl

/-- The second nibble stage: every word's next nibble minus 8. -/
theorem v9_apply (x1 : (⟨S8388608, .i32⟩ : BufTy).Contents (Elt F)) (i : S8388608.Idx) :
    val_main_v9 (F := F) x1 i = Spec.hi (x1 i) := by
  rw [val_main_v9_apply, val_main_v7_apply, val_main_v5_apply, val_main_v4_apply, val_main_c_1_apply, val_main_v6_apply,
    val_main_c_2_apply, val_main_v8_apply, val_main_c_3_apply]
  rfl

/-- The word a row of the two-column array comes from. -/
abbrev wordIx (j : S8388608x2.Idx) : S8388608.Idx := ix1 (⟨(j 0).val, idx2_lt0 j⟩ : Fin 8388608)

/-- The two-column array: column 0 holds the low nibbles, column 1 the nibbles above them. -/
theorem v12_apply (x1 : (⟨S8388608, .i32⟩ : BufTy).Contents (Elt F)) (j : S8388608x2.Idx) :
    val_main_v12 (F := F) x1 j = if (j 1).val = 0 then Spec.lo (x1 (wordIx j)) else Spec.hi (x1 (wordIx j)) := by
  unfold val_main_v12
  have h1 := idx2_lt1 j
  by_cases h : (j 1).val = 0
  · rw [if_pos h]
    refine (concatenate_pair_apply_left 1 (val_main_v10 (F := F) x1) (val_main_v11 (F := F) x1)
      concatenates_S8388608x1_S8388608x1_S8388608x2_d1 j rfl
      (ix2 (⟨(j 0).val, idx2_lt0 j⟩ : Fin 8388608) (0 : Fin 1)) (fun b => by
        match b with
        | ⟨0, _⟩ => rfl
        | ⟨1, _⟩ => exact h.symm)).trans ?_
    rw [val_main_v10_apply, v3_apply]
    exact congrArg (fun w => Spec.lo (x1 w)) (funext fun a => by match a with | ⟨0, _⟩ => rfl)
  · rw [if_neg h]
    refine (concatenate_pair_apply_right 1 (val_main_v10 (F := F) x1) (val_main_v11 (F := F) x1)
      concatenates_S8388608x1_S8388608x1_S8388608x2_d1 j rfl rfl
      (ix2 (⟨(j 0).val, idx2_lt0 j⟩ : Fin 8388608) (0 : Fin 1)) (fun b hb => by
        match b with
        | ⟨0, _⟩ => rfl
        | ⟨1, _⟩ => exact absurd rfl hb) (by show 0 + 1 = (j 1).val; omega)).trans ?_
    rw [val_main_v11_apply, v9_apply]
    exact congrArg (fun w => Spec.hi (x1 w)) (funext fun a => by match a with | ⟨0, _⟩ => rfl)

/-- Word `k / 2` of row `o` of the packed array, for an entry (o, k) of the [4096, 4096] matrix. -/
abbrev halfIx (j : S4096x4096.Idx) : (⟨2, ![4096, 2048]⟩ : Shape).Idx :=
  ix2 (⟨(j 0).val, idx2_lt0 j⟩ : Fin 4096) (⟨(j 1).val / 2, by have := idx2_lt1 j; omega⟩ : Fin 2048)

/-- The unpacked integer matrix: entry (o, k) is the low nibble of word `k / 2` of row `o` at an even `k` and the
    nibble above it at an odd `k`. -/
theorem v14_apply (x1 : (⟨S8388608, .i32⟩ : BufTy).Contents (Elt F)) (j : S4096x4096.Idx) :
    val_main_v14 (F := F) x1 j
      = if (j 1).val % 2 = 0 then Spec.lo (Spec.rows x1 (halfIx j)) else Spec.hi (Spec.rows x1 (halfIx j)) := by
  have h0 := idx2_lt0 j
  have h1 := idx2_lt1 j
  rw [val_main_v14_apply, val_main_v13_apply, v12_apply]
  have hw : wordIx (idx_main_v13 (idx_main_v14 j))
      = ix1 (⟨(j 0).val * 2048 + (j 1).val / 2, by omega⟩ : Fin 8388608) := funext fun a => by
    match a with
    | ⟨0, _⟩ => exact Fin.ext (by show ((j 0).val * 4096 + (j 1).val) / 2 = (j 0).val * 2048 + (j 1).val / 2; omega)
  have hs : ((idx_main_v13 (idx_main_v14 j)) 1).val = (j 1).val % 2 := by
    show ((j 0).val * 4096 + (j 1).val) % 2 = (j 1).val % 2; omega
  rw [hw, hs]
  rfl

/-- The reference's weight matrix is the specification's. -/
theorem v17_apply (x1 : (⟨S8388608, .i32⟩ : BufTy).Contents (Elt Ideal)) (x2 : (⟨S4096x1, .f32⟩ : BufTy).Contents (Elt Ideal))
    (j : S4096x4096.Idx) : val_main_v17 (F := Ideal) x1 x2 j = Spec.wgt x1 x2 j := by
  rw [val_main_v17_apply, val_main_v15_apply, val_main_v16_apply, v14_apply, Ideal.mulf_def]
  have hx : idx_main_v16 j = ix2 (⟨(j 0).val, idx2_lt0 j⟩ : Fin 4096) (0 : Fin 1) := funext fun a => by
    match a with
    | ⟨0, _⟩ => rfl
    | ⟨1, _⟩ => rfl
  rw [hx]
  unfold Spec.wgt Spec.interleave Spec.loArr Spec.hiArr
  by_cases hp : (j 1).val % 2 = 0
  · simp only [if_pos hp]
  · simp only [if_neg hp]

/-- The reference program computes `G`. -/
theorem ref_eq (x0 : (⟨S8192x4096, .f32⟩ : BufTy).Contents (Elt Ideal)) (x1 : (⟨S8388608, .i32⟩ : BufTy).Contents (Elt Ideal))
    (x2 : (⟨S4096x1, .f32⟩ : BufTy).Contents (Elt Ideal)) :
    Cert.ReferenceIdeal.Read.val_main_v18 (F := Ideal) x0 x1 x2 = Cert.Spec.G x0 x1 x2 := by
  funext i
  rw [val_main_v18_apply]
  unfold Spec.G Spec.mmT
  refine Finset.sum_congr rfl fun k _ => ?_
  have el : lidx_main_v18 i k = ix2 (⟨(i 0).val, idx2_lt0 i⟩ : Fin 8192) k := funext fun a => Fin.ext (by
    match a with
    | ⟨0, _⟩ => rfl
    | ⟨1, _⟩ => rfl)
  have er : ridx_main_v18 i k = ix2 (⟨(i 1).val, idx2_lt1 i⟩ : Fin 4096) k := funext fun a => Fin.ext (by
    match a with
    | ⟨0, _⟩ => rfl
    | ⟨1, _⟩ => rfl)
  rw [el, er, v17_apply]

end Cert.RefValue

end
-- ==== Proof.lean ====
/-
  int4 weight dequantisation feeding a linear layer, y = x · Wᵀ: the kernel's program against its reference,
  over the extended reals.

  Both programs unpack each 32-bit word's two low nibbles to signed weights (nibble − 8), scale them by the
  output row's scale, lay the low-nibble weights at even columns and the high-nibble weights at odd columns
  of a [4096, 4096] matrix, and contract it with `x` over the columns.  The kernel's program does the
  unpacking in one pallas_call over blocks of 1024 rows, interleaves by broadcast, concatenate and reshape,
  and the product in a second pallas_call that accumulates 1024-column blocks in a scratch buffer over the
  last grid axis; the reference does the whole in host operations.  At the ideal instance the changes of
  float format are the identity, so the two results are the same sum, grouped differently.

  The three frames: the kernel's two programs run as four segments (reshape, unpacking call, layout
  operations, product call), each call's body obligation discharged per grid point; the reference's frame is
  its run.  No rewrite was applied in idealizing the kernel, so that conjunct is trivial.
-/
import proofs.«418287_j86088324481052_1_alg».proof.Defs
import proofs.«418287_j86088324481052_1_alg».proof.Proof.Gen.Kernel
import proofs.«418287_j86088324481052_1_alg».proof.Proof.Gen.KernelIdeal
import proofs.«418287_j86088324481052_1_alg».proof.Proof.Gen.ReferenceIdeal
import proofs.«418287_j86088324481052_1_alg».proof.Proof.Gen.Pre_finite_inputs
import proofs.«418287_j86088324481052_1_alg».proof.Proof.Gen.ReferenceIdeal.Run
import proofs.«418287_j86088324481052_1_alg».proof.Proof.Gen.ReferenceIdeal.Read
import proofs.«418287_j86088324481052_1_alg».proof.Proof.BitsRun
import proofs.«418287_j86088324481052_1_alg».proof.Proof.IdealRun
import proofs.«418287_j86088324481052_1_alg».proof.Proof.Bridge
import proofs.«418287_j86088324481052_1_alg».proof.Proof.RefValue

noncomputable section

namespace Cert.Proof

open Idealize.ShloMosaic Idealize.SL.Sem

/-- The word-level program runs and leaves its arguments alone: the run over its four segments, at the bit-exact instance. -/
theorem frame_k : Cert.frame_Kernel := fun m ρ _ => Cert.Kernel.Run.frame m ρ
/-- The same run read at the ideal instance. -/
theorem frame_ki : Cert.frame_KernelIdeal := fun m ρ _ => Cert.KernelIdeal.Run.frame m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with `y[n, o] = ∑ k, x[n, k] · w[o, k]`, `w` the dequantised weights: the kernel's
    accumulates the sum in four blocks of 1024 columns and the reference takes it whole, which is one sum on the
    extended reals (addition there is associative and commutative; no finiteness is used). -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.KernelIdeal.Bridge.result_eq m c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
